-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_arg1 : IVec S2x800000 32) (main_v63 : IVec S_ 1) (main_v67 : IVec S_ 1) : IVec S_ 1 :=
  let main_v68 : IVec S_ 1 := andi main_v63 main_v67
  let main_v69 : IVec S1x800000 32 := (extractStridedSlice S1x800000 ![0, 0] · slices_S2x800000_S1x800000_0_0) main_arg1
  let main_v70 : IVec S800000 32 := shapeCast S800000 main_v69 shapeCasts_S1x800000_S800000
  let main_c_26 : IVec S_ 32 := constantI S_ 32 4294917296#32
  let main_v71 : IVec S800000 32 := broadcastInDim S800000 ![] bcast_S_S800000 main_c_26
  let main_v72 : IVec S800000 1 := cmpi .sge main_v70 main_v71
  let main_v73 : IVec S1x800000 32 := (extractStridedSlice S1x800000 ![0, 0] · slices_S2x800000_S1x800000_0_0) main_arg1
  let main_v74 : IVec S800000 32 := shapeCast S800000 main_v73 shapeCasts_S1x800000_S800000
  let main_c_27 : IVec S_ 32 := constantI S_ 32 50000#32
  let main_v75 : IVec S800000 32 := broadcastInDim S800000 ![] bcast_S_S800000 main_c_27
  let main_v76 : IVec S800000 1 := cmpi .slt main_v74 main_v75
  let main_v77 : IVec S800000 1 := andi main_v72 main_v76
  let main_c_28 : IVec S_ 1 := constantI S_ 1 1#1
  let main_v78 : IVec S_ 1 := (fun x v => Host.reduce IntOp.andi x v reducesTo_S800000_S_d0 h_S_) main_v77 main_c_28
  let main_v79 : IVec S_ 1 := andi main_v68 main_v78
  main_v79

def fn_part3 {F : FTy → Type} [FloatOps F] (main_arg1 : IVec S2x800000 32) (main_arg13 : FVec F S64x128 .f32) (main_arg14 : FVec F S128x256 .f32) (main_arg15 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128x256 .f32 := Host.absf main_arg14
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg1 main_v63 main_v67

def fn_part2 {F : FTy → Type} [FloatOps F] (main_arg1 : IVec S2x800000 32) (main_arg9 : FVec F S64 .f32) (main_arg10 : FVec F S32x64 .f32) (main_arg11 : FVec F S64x128 .f32) (main_arg12 : FVec F S128 .f32) (main_arg13 : FVec F S64x128 .f32) (main_arg14 : FVec F S128x256 .f32) (main_arg15 : FVec F S256 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S32x64 .f32 := Host.absf main_arg10
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg13 main_arg14 main_arg15 main_v48 main_v49 main_v50

def fn_part1 {F : FTy → Type} [FloatOps F] (main_arg1 : IVec S2x800000 32) (main_arg6 : FVec F S32 .f32) (main_arg7 : FVec F S128x32 .f32) (main_arg8 : FVec F S32x64 .f32) (main_arg9 : FVec F S64 .f32) (main_arg10 : FVec F S32x64 .f32) (main_arg11 : FVec F S64x128 .f32) (main_arg12 : FVec F S128 .f32) (main_arg13 : FVec F S64x128 .f32) (main_arg14 : FVec F S128x256 .f32) (main_arg15 : FVec F S256 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S128x32 .f32 := Host.absf main_arg7
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32x64 .f32 := Host.absf main_arg8
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg1 main_arg9 main_arg10 main_arg11 main_arg12 main_arg13 main_arg14 main_arg15 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x32 .f32) (main_arg6 : FVec F S32 .f32) (main_arg7 : FVec F S128x32 .f32) (main_arg8 : FVec F S32x64 .f32) (main_arg9 : FVec F S64 .f32) (main_arg10 : FVec F S32x64 .f32) (main_arg11 : FVec F S64x128 .f32) (main_arg12 : FVec F S128 .f32) (main_arg13 : FVec F S64x128 .f32) (main_arg14 : FVec F S128x256 .f32) (main_arg15 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg5
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg1 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S1x800000 : Shape := ⟨2, ![1, 800000]⟩
abbrev S800000 : Shape := ⟨1, ![800000]⟩
abbrev S1x128 : Shape := ⟨2, ![1, 128]⟩
abbrev S2000x128 : Shape := ⟨2, ![2000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x32 : Shape := ⟨2, ![1, 32]⟩
abbrev S50000x32 : Shape := ⟨2, ![50000, 32]⟩
abbrev S2000x32 : Shape := ⟨2, ![2000, 32]⟩
abbrev S800000x32 : Shape := ⟨2, ![800000, 32]⟩
abbrev S1x64 : Shape := ⟨2, ![1, 64]⟩
abbrev S50000x64 : Shape := ⟨2, ![50000, 64]⟩
abbrev S2000x64 : Shape := ⟨2, ![2000, 64]⟩
abbrev S800000x64 : Shape := ⟨2, ![800000, 64]⟩
abbrev S1000x128 : Shape := ⟨2, ![1000, 128]⟩
abbrev S50000x1 : Shape := ⟨2, ![50000, 1]⟩
abbrev S1000x1 : Shape := ⟨2, ![1000, 1]⟩
abbrev S1x256 : Shape := ⟨2, ![1, 256]⟩
abbrev S1000x256 : Shape := ⟨2, ![1000, 256]⟩

abbrev nBuf : Space → Nat
  | .hbm => 126
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S128x32, .f32⟩
  | .hbm, ⟨8, _⟩ => ⟨S32x64, .f32⟩
  | .hbm, ⟨9, _⟩ => ⟨S64, .f32⟩
  | .hbm, ⟨10, _⟩ => ⟨S32x64, .f32⟩
  | .hbm, ⟨11, _⟩ => ⟨S64x128, .f32⟩
  | .hbm, ⟨12, _⟩ => ⟨S128, .f32⟩
  | .hbm, ⟨13, _⟩ => ⟨S64x128, .f32⟩
  | .hbm, ⟨14, _⟩ => ⟨S128x256, .f32⟩
  | .hbm, ⟨15, _⟩ => ⟨S256, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S1x128, .f32⟩
  | .hbm, ⟨21, _⟩ => ⟨S50000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S1, .i32⟩
  | .hbm, ⟨31, _⟩ => ⟨S_, .i32⟩
  | .hbm, ⟨32, _⟩ => ⟨S800000x1, .i32⟩
  | .hbm, ⟨33, _⟩ => ⟨S800000x1, .i1⟩
  | .hbm, ⟨34, _⟩ => ⟨S1x1, .i32⟩
  | .hbm, ⟨35, _⟩ => ⟨S800000x1, .i32⟩
  | .hbm, ⟨36, _⟩ => ⟨S800000x1, .i1⟩
  | .hbm, ⟨37, _⟩ => ⟨S800000x1, .i1⟩
  | .hbm, ⟨38, _⟩ => ⟨S_, .i1⟩
  | .hbm, ⟨39, _⟩ => ⟨S800000, .i1⟩
  | .hbm, ⟨40, _⟩ => ⟨S800000x128, .f32⟩
  | .hbm, ⟨41, _⟩ => ⟨S800000x128, .i1⟩
  | .hbm, ⟨42, _⟩ => ⟨S_, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S1x32, .f32⟩
  | .hbm, ⟨50, _⟩ => ⟨S50000x32, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S1, .i32⟩
  | .hbm, ⟨60, _⟩ => ⟨S_, .i32⟩
  | .hbm, ⟨61, _⟩ => ⟨S800000x1, .i32⟩
  | .hbm, ⟨62, _⟩ => ⟨S800000x1, .i1⟩
  | .hbm, ⟨63, _⟩ => ⟨S1x1, .i32⟩
  | .hbm, ⟨64, _⟩ => ⟨S800000x1, .i32⟩
  | .hbm, ⟨65, _⟩ => ⟨S800000x1, .i1⟩
  | .hbm, ⟨66, _⟩ => ⟨S800000x1, .i1⟩
  | .hbm, ⟨67, _⟩ => ⟨S_, .i1⟩
  | .hbm, ⟨68, _⟩ => ⟨S800000, .i1⟩
  | .hbm, ⟨69, _⟩ => ⟨S800000x32, .f32⟩
  | .hbm, ⟨70, _⟩ => ⟨S800000x32, .i1⟩
  | .hbm, ⟨71, _⟩ => ⟨S_, .f32⟩
  | .hbm, ⟨72, _⟩ => ⟨S800000x32, .f32⟩
  | .hbm, ⟨73, _⟩ => ⟨S800000x32, .f32⟩
  | .hbm, ⟨74, _⟩ => ⟨S_, .f32⟩
  | .hbm, ⟨75, _⟩ => ⟨S50000x32, .f32⟩
  | .hbm, ⟨76, _⟩ => ⟨S800000x1, .i32⟩
  | .hbm, ⟨77, _⟩ => ⟨S50000x32, .f32⟩
  | .hbm, ⟨78, _⟩ => ⟨S1x64, .f32⟩
  | .hbm, ⟨79, _⟩ => ⟨S50000x64, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S1, .i32⟩
  | .hbm, ⟨89, _⟩ => ⟨S_, .i32⟩
  | .hbm, ⟨90, _⟩ => ⟨S800000x1, .i32⟩
  | .hbm, ⟨91, _⟩ => ⟨S800000x1, .i1⟩
  | .hbm, ⟨92, _⟩ => ⟨S1x1, .i32⟩
  | .hbm, ⟨93, _⟩ => ⟨S800000x1, .i32⟩
  | .hbm, ⟨94, _⟩ => ⟨S800000x1, .i1⟩
  | .hbm, ⟨95, _⟩ => ⟨S800000x1, .i1⟩
  | .hbm, ⟨96, _⟩ => ⟨S_, .i1⟩
  | .hbm, ⟨97, _⟩ => ⟨S800000, .i1⟩
  | .hbm, ⟨98, _⟩ => ⟨S800000x64, .f32⟩
  | .hbm, ⟨99, _⟩ => ⟨S800000x64, .i1⟩
  | .hbm, ⟨100, _⟩ => ⟨S_, .f32⟩
  | .hbm, ⟨101, _⟩ => ⟨S800000x64, .f32⟩
  | .hbm, ⟨102, _⟩ => ⟨S800000x64, .f32⟩
  | .hbm, ⟨103, _⟩ => ⟨S_, .f32⟩
  | .hbm, ⟨104, _⟩ => ⟨S50000x64, .f32⟩
  | .hbm, ⟨105, _⟩ => ⟨S800000x1, .i32⟩
  | .hbm, ⟨106, _⟩ => ⟨S50000x64, .f32⟩
  | .hbm, ⟨107, _⟩ => ⟨S1x128, .f32⟩
  | .hbm, ⟨108, _⟩ => ⟨S50000x128, .f32⟩
  | .hbm, ⟨109, _⟩ => ⟨S_, .f32⟩
  | .hbm, ⟨110, _⟩ => ⟨S1000x128, .f32⟩
  | .hbm, ⟨111, _⟩ => ⟨S50000x1, .i32⟩
  | .hbm, ⟨112, _⟩ => ⟨S1000x128, .f32⟩
  | .hbm, ⟨113, _⟩ => ⟨S_, .f32⟩
  | .hbm, ⟨114, _⟩ => ⟨S50000x1, .f32⟩
  | .hbm, ⟨115, _⟩ => ⟨S_, .f32⟩
  | .hbm, ⟨116, _⟩ => ⟨S1000x1, .f32⟩
  | .hbm, ⟨117, _⟩ => ⟨S50000x1, .i32⟩
  | .hbm, ⟨118, _⟩ => ⟨S1000x1, .f32⟩
  | .hbm, ⟨119, _⟩ => ⟨S_, .f32⟩
  | .hbm, ⟨120, _⟩ => ⟨S1000x1, .f32⟩
  | .hbm, ⟨121, _⟩ => ⟨S1000x1, .f32⟩
  | .hbm, ⟨122, _⟩ => ⟨S1000x128, .f32⟩
  | .hbm, ⟨123, _⟩ => ⟨S1000x128, .f32⟩
  | .hbm, ⟨124, _⟩ => ⟨S1x256, .f32⟩
  | .hbm, ⟨125, _⟩ => ⟨S1000x256, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x32, .f32⟩
  | .local _ .vmem, ⟨11, _⟩ => ⟨S1x32, .f32⟩
  | .local _ .vmem, ⟨12, _⟩ => ⟨S128x32, .f32⟩
  | .local _ .vmem, ⟨13, _⟩ => ⟨S2000x32, .f32⟩
  | .local _ .vmem, ⟨14, _⟩ => ⟨S2000x32, .f32⟩
  | .local _ .vmem, ⟨15, _⟩ => ⟨S2000x32, .f32⟩
  | .local _ .vmem, ⟨16, _⟩ => ⟨S2000x32, .f32⟩
  | .local _ .vmem, ⟨17, _⟩ => ⟨S2000x32, .f32⟩
  | .local _ .vmem, ⟨18, _⟩ => ⟨S2000x32, .f32⟩
  | .local _ .vmem, ⟨19, _⟩ => ⟨S32x64, .f32⟩
  | .local _ .vmem, ⟨20, _⟩ => ⟨S1x64, .f32⟩
  | .local _ .vmem, ⟨21, _⟩ => ⟨S32x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S64x128, .f32⟩
  | .local _ .vmem, ⟨29, _⟩ => ⟨S1x128, .f32⟩
  | .local _ .vmem, ⟨30, _⟩ => ⟨S64x128, .f32⟩
  | .local _ .vmem, ⟨31, _⟩ => ⟨S2000x128, .f32⟩
  | .local _ .vmem, ⟨32, _⟩ => ⟨S2000x128, .f32⟩
  | .local _ .vmem, ⟨33, _⟩ => ⟨S1000x128, .f32⟩
  | .local _ .vmem, ⟨34, _⟩ => ⟨S128x256, .f32⟩
  | .local _ .vmem, ⟨35, _⟩ => ⟨S1x256, .f32⟩
  | .local _ .vmem, ⟨36, _⟩ => ⟨S1000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v6 : Ref sig .tc := ⟨.hbm, 44, rfl⟩
abbrev main_cst : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v12 : Ref sig .tc := ⟨.hbm, 73, rfl⟩
abbrev main_cst_0 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v18 : Ref sig .tc := ⟨.hbm, 102, rfl⟩
abbrev main_cst_1 : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_cst_2 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_cst_3 : Ref sig .tc := ⟨.hbm, 113, rfl⟩
abbrev main_v27 : Ref sig .tc := ⟨.hbm, 114, rfl⟩
abbrev main_cst_4 : Ref sig .tc := ⟨.hbm, 115, rfl⟩
abbrev main_v28 : Ref sig .tc := ⟨.hbm, 116, rfl⟩
abbrev main_v29 : Ref sig .tc := ⟨.hbm, 117, rfl⟩
abbrev main_v30 : Ref sig .tc := ⟨.hbm, 118, rfl⟩
abbrev main_cst_5 : Ref sig .tc := ⟨.hbm, 119, rfl⟩
abbrev main_v31 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_v36 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem1_0 : DmaSem sig := 34
abbrev cc4_sem2_0 : DmaSem sig := 35
abbrev cc4_sem3_0 : DmaSem sig := 36

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S1000x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1000x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S32_S1x32 : S32.ShapeCasts S1x32
  shapeCasts_S2000x128_S2000x128 : S2000x128.ShapeCasts S2000x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  bcast_S800000_S800000x32_0 : S800000.BroadcastsInDim S800000x32 (![0] : Fin 1 → Fin S800000x32.rank)
  bcast_S_S800000x32 : S_.BroadcastsInDim S800000x32 (![] : Fin 0 → Fin S800000x32.rank)
  bcast_S_S50000x32 : S_.BroadcastsInDim S50000x32 (![] : Fin 0 → Fin S50000x32.rank)
  shapeCasts_S64_S1x64 : S64.ShapeCasts S1x64
  shapeCasts_S2000x32_S2000x32 : S2000x32.ShapeCasts S2000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  bcast_S_S1000x128 : S_.BroadcastsInDim S1000x128 (![] : Fin 0 → Fin S1000x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S1000x1 : S_.BroadcastsInDim S1000x1 (![] : Fin 0 → Fin S1000x1.rank)
  bcast_S1000x1_S1000x128_0_1 : S1000x1.BroadcastsInDim S1000x128 (![0, 1] : Fin 2 → Fin S1000x128.rank)
  shapeCasts_S256_S1x256 : S256.ShapeCasts S1x256
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x32_S2000x32_1_0_0_1_n_n_wf : DotDims.WF S2000x128 S128x32 S2000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S2000x32_S32x64_S2000x64_1_0_0_1_n_n_wf : DotDims.WF S2000x32 S32x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  scatter_S1000x128_S50000x1_S50000x128_1_0_0_1_wf : ScatterDims.WF S1000x128 S50000x1 S50000x128 [1] [0] [0] 1
  scatter_S1000x1_S50000x1_S50000x1_1_0_0_1_wf : ScatterDims.WF S1000x1 S50000x1 S50000x1 [1] [0] [0] 1
  dot_S1000x128_S128x256_S1000x256_1_0_0_1_n_n_wf : DotDims.WF S1000x128 S128x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S128x32.size a
  hwx1_2 : ∀ i : grid1.Coords, EltTy.bits .f32 = 32 ∨ (Rect.block (s := S128x32) S128x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x32.size a ≤ S128x32.size a
  hwx1_4 : ∀ i : grid1.Coords, EltTy.bits .f32 = 32 ∨ (Rect.block (s := S128x32) S128x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x32.size a ≤ S50000x32.size a
  hwx1_5 : ∀ i : grid1.Coords, EltTy.bits .f32 = 32 ∨ (Rect.block (s := S50000x32) S2000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S50000x32.size a
  hwx2_0 : ∀ i : grid2.Coords, EltTy.bits .f32 = 32 ∨ (Rect.block (s := S50000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S50000x32.size a
  hwx2_1 : ∀ i : grid2.Coords, EltTy.bits .f32 = 32 ∨ (Rect.block (s := S50000x32) S2000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x64.size a ≤ S32x64.size a
  hwx2_2 : ∀ i : grid2.Coords, EltTy.bits .f32 = 32 ∨ (Rect.block (s := S32x64) S32x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x64.size a ≤ S32x64.size a
  hwx2_4 : ∀ i : grid2.Coords, EltTy.bits .f32 = 32 ∨ (Rect.block (s := S32x64) S32x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x128.size a ≤ S64x128.size a
  hwx3_4 : ∀ i : grid3.Coords, EltTy.bits .f32 = 32 ∨ (Rect.block (s := S64x128) S64x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S1000x128.size a
  hwx4_0 : ∀ i : grid4.Coords, EltTy.bits .f32 = 32 ∨ (Rect.block (s := S1000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S1000x256.size a ≤ S1000x256.size a
  hwx4_3 : ∀ i : grid4.Coords, EltTy.bits .f32 = 32 ∨ (Rect.block (s := S1000x256) S1000x256.size (cc4_transform_3 i) (hinb4_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def scatter_S1000x128_S50000x1_S50000x128_1_0_0_1 : ScatterDims S1000x128 S50000x1 S50000x128 where
  updateWindowDims := [1]
  insertedWindowDims := [0]
  scatterDimsToOperandDims := [0]
  indexVectorDim := 1
  wf := scatter_S1000x128_S50000x1_S50000x128_1_0_0_1_wf
def scatter_S1000x1_S50000x1_S50000x1_1_0_0_1 : ScatterDims S1000x1 S50000x1 S50000x1 where
  updateWindowDims := [1]
  insertedWindowDims := [0]
  scatterDimsToOperandDims := [0]
  indexVectorDim := 1
  wf := scatter_S1000x1_S50000x1_S50000x1_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S2000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v15) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S32x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S32x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v21) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v22) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S64x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v23) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v34) S1000x128.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v35) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v36) S1000x256.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000x32 : Shape := ⟨2, ![50000, 32]⟩
abbrev S1x32 : Shape := ⟨2, ![1, 32]⟩
abbrev S800000x32 : Shape := ⟨2, ![800000, 32]⟩
abbrev S50000x64 : Shape := ⟨2, ![50000, 64]⟩
abbrev S1x64 : Shape := ⟨2, ![1, 64]⟩
abbrev S800000x64 : Shape := ⟨2, ![800000, 64]⟩
abbrev S1000x128 : Shape := ⟨2, ![1000, 128]⟩
abbrev S50000x1 : Shape := ⟨2, ![50000, 1]⟩
abbrev S1000x1 : Shape := ⟨2, ![1000, 1]⟩
abbrev S1000x256 : Shape := ⟨2, ![1000, 256]⟩
abbrev S1x256 : Shape := ⟨2, ![1, 256]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S128x32, .f32⟩
  | .hbm, ⟨8, _⟩ => ⟨S32x64, .f32⟩
  | .hbm, ⟨9, _⟩ => ⟨S64, .f32⟩
  | .hbm, ⟨10, _⟩ => ⟨S32x64, .f32⟩
  | .hbm, ⟨11, _⟩ => ⟨S64x128, .f32⟩
  | .hbm, ⟨12, _⟩ => ⟨S128, .f32⟩
  | .hbm, ⟨13, _⟩ => ⟨S64x128, .f32⟩
  | .hbm, ⟨14, _⟩ => ⟨S128x256, .f32⟩
  | .hbm, ⟨15, _⟩ => ⟨S256, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x32, .f32⟩
  | .hbm, ⟨38, _⟩ => ⟨S1x32, .f32⟩
  | .hbm, ⟨39, _⟩ => ⟨S50000x32, .f32⟩
  | .hbm, ⟨40, _⟩ => ⟨S50000x32, .f32⟩
  | .hbm, ⟨41, _⟩ => ⟨S50000x32, .f32⟩
  | .hbm, ⟨42, _⟩ => ⟨S50000x32, .f32⟩
  | .hbm, ⟨43, _⟩ => ⟨S_, .f32⟩
  | .hbm, ⟨44, _⟩ => ⟨S50000x32, .f32⟩
  | .hbm, ⟨45, _⟩ => ⟨S50000x32, .i1⟩
  | .hbm, ⟨46, _⟩ => ⟨S_, .f32⟩
  | .hbm, ⟨47, _⟩ => ⟨S50000x32, .f32⟩
  | .hbm, ⟨48, _⟩ => ⟨S50000x32, .f32⟩
  | .hbm, ⟨49, _⟩ => ⟨S50000x32, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x32, .f32⟩
  | .hbm, ⟨59, _⟩ => ⟨S_, .f32⟩
  | .hbm, ⟨60, _⟩ => ⟨S50000x32, .f32⟩
  | .hbm, ⟨61, _⟩ => ⟨S800000x1, .i32⟩
  | .hbm, ⟨62, _⟩ => ⟨S50000x32, .f32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .i1⟩
  | .hbm, ⟨72, _⟩ => ⟨S_, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x64, .f32⟩
  | .hbm, ⟨85, _⟩ => ⟨S_, .f32⟩
  | .hbm, ⟨86, _⟩ => ⟨S50000x64, .f32⟩
  | .hbm, ⟨87, _⟩ => ⟨S800000x1, .i32⟩
  | .hbm, ⟨88, _⟩ => ⟨S50000x64, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S1000x128, .f32⟩
  | .hbm, ⟨97, _⟩ => ⟨S50000x1, .i32⟩
  | .hbm, ⟨98, _⟩ => ⟨S1000x128, .f32⟩
  | .hbm, ⟨99, _⟩ => ⟨S_, .f32⟩
  | .hbm, ⟨100, _⟩ => ⟨S50000x1, .f32⟩
  | .hbm, ⟨101, _⟩ => ⟨S_, .f32⟩
  | .hbm, ⟨102, _⟩ => ⟨S1000x1, .f32⟩
  | .hbm, ⟨103, _⟩ => ⟨S50000x1, .i32⟩
  | .hbm, ⟨104, _⟩ => ⟨S1000x1, .f32⟩
  | .hbm, ⟨105, _⟩ => ⟨S_, .f32⟩
  | .hbm, ⟨106, _⟩ => ⟨S1000x1, .f32⟩
  | .hbm, ⟨107, _⟩ => ⟨S1000x1, .f32⟩
  | .hbm, ⟨108, _⟩ => ⟨S1000x128, .f32⟩
  | .hbm, ⟨109, _⟩ => ⟨S1000x128, .f32⟩
  | .hbm, ⟨110, _⟩ => ⟨S1000x256, .f32⟩
  | .hbm, ⟨111, _⟩ => ⟨S1x256, .f32⟩
  | .hbm, ⟨112, _⟩ => ⟨S1000x256, .f32⟩
  | .hbm, ⟨113, _⟩ => ⟨S1000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_3 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_12 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S1000x128 : S_.BroadcastsInDim S1000x128 (![] : Fin 0 → Fin S1000x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S1000x1 : S_.BroadcastsInDim S1000x1 (![] : Fin 0 → Fin S1000x1.rank)
  bcast_S1000x1_S1000x128_0_1 : S1000x1.BroadcastsInDim S1000x128 (![0, 1] : Fin 2 → Fin S1000x128.rank)
  bcast_S256_S1x256_1 : S256.BroadcastsInDim S1x256 (![1] : Fin 1 → Fin S1x256.rank)
  bcast_S1x256_S1000x256_0_1 : S1x256.BroadcastsInDim S1000x256 (![0, 1] : Fin 2 → Fin S1000x256.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x32_S50000x32_1_0_0_1_n_n_wf : DotDims.WF S50000x128 S128x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S50000x32_S32x64_S50000x64_1_0_0_1_n_n_wf : DotDims.WF S50000x32 S32x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  scatter_S1000x128_S50000x1_S50000x128_1_0_0_1_wf : ScatterDims.WF S1000x128 S50000x1 S50000x128 [1] [0] [0] 1
  scatter_S1000x1_S50000x1_S50000x1_1_0_0_1_wf : ScatterDims.WF S1000x1 S50000x1 S50000x1 [1] [0] [0] 1
  dot_S1000x128_S128x256_S1000x256_1_0_0_1_n_n_wf : DotDims.WF S1000x128 S128x256 S1000x256 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S1000x128_S50000x1_S50000x128_1_0_0_1 : ScatterDims S1000x128 S50000x1 S50000x128 where
  updateWindowDims := [1]
  insertedWindowDims := [0]
  scatterDimsToOperandDims := [0]
  indexVectorDim := 1
  wf := scatter_S1000x128_S50000x1_S50000x128_1_0_0_1_wf
def scatter_S1000x1_S50000x1_S50000x1_1_0_0_1 : ScatterDims S1000x1 S50000x1 S50000x1 where
  updateWindowDims := [1]
  insertedWindowDims := [0]
  scatterDimsToOperandDims := [0]
  indexVectorDim := 1
  wf := scatter_S1000x1_S50000x1_S50000x1_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf

class Facts : Prop extends Facts₀ where

variable [Facts]
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.KDots.lean ====
/-
  The five matrix products of the idealized kernel (one per linear layer, two per SAGE layer sharing one set of
  dimension numbers) all contract axis 1 of the left operand with axis 0 of the right: the plain rows-by-columns
  product, so each reads at (p, q) as row p against column q.
-/
import proofs.«401523_j2774548873916_1_alg».proof.Proof.Gen.KernelIdeal
import proofs.«401523_j2774548873916_1_alg».proof.Proof.LibSageSpec

noncomputable section

namespace Cert.KernelIdeal.Dots

open Cert.KernelIdeal Idealize.ShloMosaic Idealize.ShloMosaic.SageSpec

/-- The embedding layer's product on a block of 2000 rows: [2000 × 128] · [128 × 128]. -/
theorem plain0 : PlainDot (n := 2000) (k := 128) (m := 128) dot_S2000x128_S128x128_S2000x128_1_0_0_1_n_n where
  rank := rfl
  size := fun _ => rfl
  l0 := fun i q => by
    unfold DotDims.lhsIdx
    rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
    rfl
  l1 := fun i q _ => dot_S2000x128_S128x128_S2000x128_1_0_0_1_n_n.lhsIdx_val_of_single rfl i q
  r0 := fun i q _ => dot_S2000x128_S128x128_S2000x128_1_0_0_1_n_n.rhsIdx_val_of_single rfl i q
  r1 := fun i q => by
    unfold DotDims.rhsIdx
    rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
    rfl

/-- The first SAGE layer's two products on a block: [2000 × 128] · [128 × 32]. -/
theorem plain1 : PlainDot (n := 2000) (k := 128) (m := 32) dot_S2000x128_S128x32_S2000x32_1_0_0_1_n_n where
  rank := rfl
  size := fun _ => rfl
  l0 := fun i q => by
    unfold DotDims.lhsIdx
    rw [dif_neg (show ¬(0 : Fin S2000x128.rank) ∈ dot_S2000x128_S128x32_S2000x32_1_0_0_1_n_n.lhsBatch by decide), dif_pos (show (0 : Fin S2000x128.rank) ∈ dot_S2000x128_S128x32_S2000x32_1_0_0_1_n_n.lhsNonContracting by decide)]
    rfl
  l1 := fun i q _ => dot_S2000x128_S128x32_S2000x32_1_0_0_1_n_n.lhsIdx_val_of_single rfl i q
  r0 := fun i q _ => dot_S2000x128_S128x32_S2000x32_1_0_0_1_n_n.rhsIdx_val_of_single rfl i q
  r1 := fun i q => by
    unfold DotDims.rhsIdx
    rw [dif_neg (show ¬(1 : Fin S128x32.rank) ∈ dot_S2000x128_S128x32_S2000x32_1_0_0_1_n_n.rhsBatch by decide), dif_pos (show (1 : Fin S128x32.rank) ∈ dot_S2000x128_S128x32_S2000x32_1_0_0_1_n_n.rhsNonContracting by decide)]
    rfl

/-- The second SAGE layer's two products on a block: [2000 × 32] · [32 × 64]. -/
theorem plain2 : PlainDot (n := 2000) (k := 32) (m := 64) dot_S2000x32_S32x64_S2000x64_1_0_0_1_n_n where
  rank := rfl
  size := fun _ => rfl
  l0 := fun i q => by
    unfold DotDims.lhsIdx
    rw [dif_neg (show ¬(0 : Fin S2000x32.rank) ∈ dot_S2000x32_S32x64_S2000x64_1_0_0_1_n_n.lhsBatch by decide), dif_pos (show (0 : Fin S2000x32.rank) ∈ dot_S2000x32_S32x64_S2000x64_1_0_0_1_n_n.lhsNonContracting by decide)]
    rfl
  l1 := fun i q _ => dot_S2000x32_S32x64_S2000x64_1_0_0_1_n_n.lhsIdx_val_of_single rfl i q
  r0 := fun i q _ => dot_S2000x32_S32x64_S2000x64_1_0_0_1_n_n.rhsIdx_val_of_single rfl i q
  r1 := fun i q => by
    unfold DotDims.rhsIdx
    rw [dif_neg (show ¬(1 : Fin S32x64.rank) ∈ dot_S2000x32_S32x64_S2000x64_1_0_0_1_n_n.rhsBatch by decide), dif_pos (show (1 : Fin S32x64.rank) ∈ dot_S2000x32_S32x64_S2000x64_1_0_0_1_n_n.rhsNonContracting by decide)]
    rfl

/-- The third SAGE layer's two products on a block: [2000 × 64] · [64 × 128]. -/
theorem plain3 : PlainDot (n := 2000) (k := 64) (m := 128) dot_S2000x64_S64x128_S2000x128_1_0_0_1_n_n where
  rank := rfl
  size := fun _ => rfl
  l0 := fun i q => by
    unfold DotDims.lhsIdx
    rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
    rfl
  l1 := fun i q _ => dot_S2000x64_S64x128_S2000x128_1_0_0_1_n_n.lhsIdx_val_of_single rfl i q
  r0 := fun i q _ => dot_S2000x64_S64x128_S2000x128_1_0_0_1_n_n.rhsIdx_val_of_single rfl i q
  r1 := fun i q => by
    unfold DotDims.rhsIdx
    rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
    rfl

/-- The final projection's product on its one block of 1000 rows: [1000 × 128] · [128 × 256]. -/
theorem plain4 : PlainDot (n := 1000) (k := 128) (m := 256) dot_S1000x128_S128x256_S1000x256_1_0_0_1_n_n where
  rank := rfl
  size := fun _ => rfl
  l0 := fun i q => by
    unfold DotDims.lhsIdx
    rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
    rfl
  l1 := fun i q _ => dot_S1000x128_S128x256_S1000x256_1_0_0_1_n_n.lhsIdx_val_of_single rfl i q
  r0 := fun i q _ => dot_S1000x128_S128x256_S1000x256_1_0_0_1_n_n.rhsIdx_val_of_single rfl i q
  r1 := fun i q => by
    unfold DotDims.rhsIdx
    rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
    rfl

end Cert.KernelIdeal.Dots

end
-- ==== Proof.Reg0.lean ====
/-
  The embedding layer's pallas_call, read as one whole-array function. The grid has 25 points; point t stores rows
  2000·t … 2000·t + 1999 of the output, each entry (p, q) of its block the row p of the input block against column q of
  the weight matrix (resident whole at every point) plus the bias row's entry q. The 25 row blocks tile the 50000 rows,
  so after the run the output array is `x · W + b` at every index.
-/
import proofs.«401523_j2774548873916_1_alg».proof.Proof.Gen.KernelIdeal.Frame
import proofs.«401523_j2774548873916_1_alg».proof.Proof.LibSageSpec
import proofs.«401523_j2774548873916_1_alg».proof.Proof.KDots
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.SL.Sem
open Idealize.ShloMosaic.Pipeline (Dat Cfg Window)
open Idealize.ShloMosaic.SageSpec Idealize.ShloMosaic.ValueIdx

-- the TensorCore's buffer contents when the region is entered
variable (V : (c : Dev nD) → (b : Ref sig .tc) → Buf (Elt Ideal) ((c : Thread nD τ).loc b))

/-- The zero offsets of a whole-block load or store, as a constant function. -/
theorem zero_offsets : (![0, 0] : Fin 2 → Nat) = fun _ => 0 := funext fun a => by fin_cases a <;> rfl

/-- The body's one stored value at (p, q): row p of the loaded x block against column q of the loaded weights (the two
    changes of format are the identity at the extended reals, and the product starts from a zero accumulator), plus the
    bias row's entry q (the row is cast to its own shape and broadcast down the 2000 rows). -/
theorem stored_at (x0 : FVec Ideal S2000x128 .f32) (x1 : FVec Ideal S128x128 .f32) (x2 : FVec Ideal S1x128 .f32)
    (p : Fin 2000) (q : Fin 128) :
    (k0_pay1 (F := Ideal) x0 x1 x2) (ix2 p q)
      = rowDot (x0 : Mat 2000 128) (x1 : Mat 128 128) p q + x2 (ix2 0 q) := by
  unfold k0_pay1
  show ((FloatOps.matmul (F := Ideal) dot_S2000x128_S128x128_S2000x128_1_0_0_1_n_n none
          (truncf .bf16 x0 bitsLt_bf16_f32) (truncf .bf16 x1 bitsLt_bf16_f32)
          (constant S2000x128 .f32 0x00000000#32) (ix2 p q) : EReal)
      + (broadcastTo S2000x128 (shapeCast S1x128 x2 shapeCasts_S1x128_S1x128) broadcasts_S1x128_S2000x128 (ix2 p q) : EReal)) = _
  rw [shapeCast_self]
  refine congrArg₂ (· + ·) ((matmul_zero_at Cert.KernelIdeal.Dots.plain0 none _ _ (ix2 p q)).trans rfl) ?_
  refine broadcastTo_apply x2 broadcasts_S1x128_S2000x128 (ix2 p q) (ix2 0 q) ?_
  intro a
  match a with
  | ⟨0, _⟩ => rfl
  | ⟨1, _⟩ => rfl

/-- The printed index maps, decided over the 25 points: the x block moves with the output block (block row t, block
    column 0); the weights and the bias row stay at block (0, 0). -/
theorem index_maps : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The x block at point t, at (p, κ): row (output block row · 2000 + p) of x, column κ. -/
theorem x_block_at (c : Dev nD) (t : Fin cfg0.N) (p : Fin 2000) (κ : Fin 128) (r : Fin 50000)
    (hr : r.val = win0_3.index t (0 : Fin 2) * 2000 + p.val) :
    (iblk0 V c 0 t : Vec Ideal S2000x128 .f32) (ix2 p κ) = (V c main_arg0 : Mat 50000 128) (ix2 r κ) := by
  obtain ⟨e0, e1, -⟩ := index_maps t
  unfold iblk0
  show (V c main_arg0 : Mat 50000 128) (((cfg0.win 0).blk t).view.emb (ix2 p κ)) = _
  refine congrArg (V c main_arg0 : Mat 50000 128) (funext fun a => Fin.ext ?_)
  match a with
  | ⟨0, _⟩ => show win0_0.index t (0 : Fin 2) * 2000 + 1 * p.val = r.val; omega
  | ⟨1, _⟩ => show win0_0.index t (1 : Fin 2) * 128 + 1 * κ.val = κ.val; omega

/-- The weight block at any point is the whole weight matrix. -/
theorem w_block_at (c : Dev nD) (t : Fin cfg0.N) (κ : Fin 128) (q : Fin 128) :
    (iblk0 V c 1 t : Vec Ideal S128x128 .f32) (ix2 κ q) = (V c main_arg3 : Mat 128 128) (ix2 κ q) := by
  obtain ⟨-, -, e2, e3, -⟩ := index_maps t
  unfold iblk0
  show (V c main_arg3 : Mat 128 128) (((cfg0.win 1).blk t).view.emb (ix2 κ q)) = _
  refine congrArg (V c main_arg3 : Mat 128 128) (funext fun a => Fin.ext ?_)
  match a with
  | ⟨0, _⟩ => show win0_1.index t (0 : Fin 2) * 128 + 1 * κ.val = κ.val; omega
  | ⟨1, _⟩ => show win0_1.index t (1 : Fin 2) * 128 + 1 * q.val = q.val; omega

/-- The bias block at any point is the whole bias row. -/
theorem b_block_at (c : Dev nD) (t : Fin cfg0.N) (q : Fin 128) :
    (iblk0 V c 2 t : Vec Ideal S1x128 .f32) (ix2 0 q) = (V c main_v4 : Mat 1 128) (ix2 0 q) := by
  obtain ⟨-, -, -, -, e4, e5, -⟩ := index_maps t
  unfold iblk0
  show (V c main_v4 : Mat 1 128) (((cfg0.win 2).blk t).view.emb (ix2 0 q)) = _
  refine congrArg (V c main_v4 : Mat 1 128) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 128 + 1 * q.val = q.val; omega

/-- WHAT POINT t WRITES BACK is block t of the linear layer of the arrays the region finds: entry (p, q) of the block
    sits at row (block row · 2000 + p), column q of the output, and there the layer's row is the x block's row p. -/
theorem flushed_eq (c : Dev nD) (t : Fin cfg0.N) :
    (dat0 (F := Ideal) V c).flushed 3 t = ((cfg0.win 3).blk t).view.read (Elt Ideal)
      (linF (V c main_arg0 : Mat 50000 128) (V c main_arg3 : Mat 128 128) (fun q => (V c main_v4 : Mat 1 128) (ix2 0 q))) := by
  show (cfg0.win 3).cut (grid0.coords t) ((dat0 V c).after 3 t) = _
  rw [after0_3]
  unfold out0_3
  rw [View.canon_unit_zero zero_offsets]
  simp only [View.ld_unit_zero (S := S2000x128) zero_offsets, View.ld_unit_zero (S := S128x128) zero_offsets,
    View.ld_unit_zero (S := S1x128) zero_offsets]
  refine funext fun (j : S2000x128.Idx) => ?_
  obtain ⟨p, q, rfl⟩ : ∃ (p : Fin 2000) (q : Fin 128), j = ix2 p q := ⟨j 0, j 1, eq_ix2 j⟩
  obtain ⟨-, -, -, -, -, -, e6, e7⟩ := index_maps t
  have ht : t.val < 25 := lt_of_lt_of_eq t.isLt N_0
  obtain ⟨r, hr⟩ : ∃ r : Fin 50000, r.val = win0_3.index t (0 : Fin 2) * 2000 + p.val :=
    ⟨⟨win0_3.index t (0 : Fin 2) * 2000 + p.val, by have := p.isLt; omega⟩, rfl⟩
  have hin : (cfg0.win 3).xinj (grid0.coords t) (ix2 p q) = (ix2 p q : S2000x128.Idx) := funext fun a => by
    match a with
    | ⟨0, _⟩ => rfl
    | ⟨1, _⟩ => rfl
  have hout : ((cfg0.win 3).blk t).view.emb (ix2 p q) = (ix2 r q : S50000x128.Idx) := funext fun a => Fin.ext (by
    match a with
    | ⟨0, _⟩ => show win0_3.index t (0 : Fin 2) * 2000 + 1 * p.val = r.val; omega
    | ⟨1, _⟩ => show win0_3.index t (1 : Fin 2) * 128 + 1 * q.val = q.val; omega)
  refine (congrArg (k0_pay1 (F := Ideal) (iblk0 V c 0 t) (iblk0 V c 1 t) (iblk0 V c 2 t)) hin).trans ?_
  refine (stored_at _ _ _ p q).trans ?_
  refine Eq.trans ?_ (congrArg (linF (V c main_arg0 : Mat 50000 128) (V c main_arg3 : Mat 128 128) (fun q => (V c main_v4 : Mat 1 128) (ix2 0 q))) hout).symm
  show _ = rowDot (V c main_arg0 : Mat 50000 128) (V c main_arg3 : Mat 128 128) r q + (V c main_v4 : Mat 1 128) (ix2 0 q)
  refine congrArg₂ (· + ·) ?_ (b_block_at V c t q)
  unfold rowDot
  refine Finset.sum_congr rfl fun κ _ => ?_
  rw [x_block_at V c t p κ r hr, w_block_at V c t κ q]

/-- An index of the output array is in point t's block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v5).slice (win0_3.rect t)).set ↔ _
  rw [View.set_slice_whole, Rect.mem_set_unit]
  exact Iff.rfl

/-- The 25 row blocks tile the array: row r is in the block of point r / 2000, and every point writes back. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  obtain ⟨-, -, -, -, -, -, e6, e7⟩ := index_maps t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The output array after the run: the linear layer of the arrays the region finds. -/
theorem value0 (c : Dev nD) :
    ((dat0 (F := Ideal) V c).arrAt 3 cfg0.N : S50000x128.Idx → EReal)
      = linF (V c main_arg0 : Mat 50000 128) (V c main_arg3 : Mat 128 128) (fun q => (V c main_v4 : Mat 1 128) (ix2 0 q)) :=
  (dat0 (F := Ideal) V c).arrAt_eq_of_cover 3 _ (fun t _ => flushed_eq V c t) covered

end Cert.KernelIdeal.Reg0

end
-- ==== Proof.Reg1.lean ====
/-
  The first SAGE layer's pallas_call, read as one whole-array function. The grid has 25 points; point t stores rows
  2000·t … 2000·t + 1999 of the output. Entry (p, q) of its block is the leaky activation of the row p of the aggregated-neighbour block
  against column q of the left weight matrix, plus row p of the node-feature block against column q of the right weight
  matrix, plus the bias row's entry q (128 contracted positions, 32 output columns). The weight matrices and the bias row
  are resident whole at every point; the 25 row blocks tile the 50000 rows.
-/
import proofs.«401523_j2774548873916_1_alg».proof.Proof.Gen.KernelIdeal.Frame
import proofs.«401523_j2774548873916_1_alg».proof.Proof.LibSageSpec
import proofs.«401523_j2774548873916_1_alg».proof.Proof.KDots
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.SL.Sem
open Idealize.ShloMosaic.Pipeline (Dat Cfg Window)
open Idealize.ShloMosaic.SageSpec Idealize.ShloMosaic.ValueIdx

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry (p, q) of what the body stores, over any loaded blocks. -/
theorem pay_at (x0 x1 : Vec Ideal S2000x128 .f32) (x2 x4 : Vec Ideal S128x32 .f32) (x3 : Vec Ideal S1x32 .f32)
    (p : Fin 2000) (q : Fin 32) :
    k1_pay1 (F := Ideal) x0 x1 x2 x4 x3 (ix2 p q)
      = leakyAt (rowDot (fun i => x0 i) (fun i => x2 i) p q + rowDot (fun i => x1 i) (fun i => x4 i) p q + x3 (ix2 0 q)) := by
  unfold k1_pay1
  show leakyAt _ = leakyAt _
  refine congrArg leakyAt ?_
  refine congrArg₂ (· + ·) (congrArg₂ (· + ·) ?_ ?_) ?_
  · rw [shapeCast_self]
    exact matmul_zero_at Cert.KernelIdeal.Dots.plain1 none _ _ (ix2 p q)
  · rw [shapeCast_self]
    exact matmul_zero_at Cert.KernelIdeal.Dots.plain1 none _ _ (ix2 p q)
  · rw [shapeCast_self]
    exact broadcastTo_apply x3 _ (ix2 p q) (ix2 0 q) (fun a => by
      match a with
      | ⟨0, _⟩ => rfl
      | ⟨1, _⟩ => rfl)

/-- The grid has 25 points. -/
theorem point_lt (t : Fin cfg1.N) : t.val < 25 := Nat.lt_of_lt_of_eq t.isLt N_1

/-- The array row that row `p` of point `t`'s block is. -/
def row (t : Fin cfg1.N) (p : Fin 2000) : Fin 50000 :=
  ⟨t.val * 2000 + p.val, by have := point_lt t; have := p.isLt; omega⟩

/-- The printed index maps over the grid: the three row-blocked windows sit at block (t, 0), the three resident ones
    at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the aggregated-neighbour block at point `t` is row `2000 t + p` of the array. -/
theorem agg_at (c : Dev nD) (t : Fin cfg1.N) (p : Fin 2000) (j : Fin 128) :
    iblk1 (F := Ideal) V c 0 t (ix2 p j) = (V c main_v9 : Mat 50000 128) (ix2 (row t p) j) := by
  obtain ⟨e0, e1, -⟩ := idx_facts t
  show (V c main_v9 : Mat 50000 128) (((cfg1.win 0).blk t).view.emb (ix2 p j)) = _
  refine congrArg (V c main_v9 : Mat 50000 128) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * j.val = j.val; omega

/-- Row `p` of the node-feature block at point `t` is row `2000 t + p` of the array. -/
theorem feat_at (c : Dev nD) (t : Fin cfg1.N) (p : Fin 2000) (j : Fin 128) :
    iblk1 (F := Ideal) V c 1 t (ix2 p j) = (V c main_v5 : Mat 50000 128) (ix2 (row t p) j) := by
  obtain ⟨-, -, e0, e1, -⟩ := idx_facts t
  show (V c main_v5 : Mat 50000 128) (((cfg1.win 1).blk t).view.emb (ix2 p j)) = _
  refine congrArg (V c main_v5 : Mat 50000 128) (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * j.val = j.val; omega

/-- The left weight matrix is resident whole at every point. -/
theorem wl_at (c : Dev nD) (t : Fin cfg1.N) (j : Fin 128) (q : Fin 32) :
    iblk1 (F := Ideal) V c 2 t (ix2 j q) = (V c main_arg5 : Mat 128 32) (ix2 j q) := by
  obtain ⟨-, -, -, -, e0, e1, -⟩ := idx_facts t
  show (V c main_arg5 : Mat 128 32) (((cfg1.win 2).blk t).view.emb (ix2 j q)) = _
  refine congrArg (V c main_arg5 : Mat 128 32) (funext fun a => Fin.ext ?_)
  match a with
  | ⟨0, _⟩ => show win1_2.index t (0 : Fin 2) * 128 + 1 * j.val = j.val; omega
  | ⟨1, _⟩ => show win1_2.index t (1 : Fin 2) * 32 + 1 * q.val = q.val; omega

/-- The bias row is resident whole at every point. -/
theorem bias_at (c : Dev nD) (t : Fin cfg1.N) (z : Fin 1) (q : Fin 32) :
    iblk1 (F := Ideal) V c 3 t (ix2 z q) = (V c main_v10 : Mat 1 32) (ix2 z q) := by
  obtain ⟨-, -, -, -, -, -, e0, e1, -⟩ := idx_facts t
  show (V c main_v10 : Mat 1 32) (((cfg1.win 3).blk t).view.emb (ix2 z q)) = _
  refine congrArg (V c main_v10 : Mat 1 32) (funext fun a => Fin.ext ?_)
  match a with
  | ⟨0, _⟩ => show win1_3.index t (0 : Fin 2) * 1 + 1 * z.val = z.val; omega
  | ⟨1, _⟩ => show win1_3.index t (1 : Fin 2) * 32 + 1 * q.val = q.val; omega

/-- The right weight matrix is resident whole at every point. -/
theorem wr_at (c : Dev nD) (t : Fin cfg1.N) (j : Fin 128) (q : Fin 32) :
    iblk1 (F := Ideal) V c 4 t (ix2 j q) = (V c main_arg7 : Mat 128 32) (ix2 j q) := by
  obtain ⟨-, -, -, -, -, -, -, -, e0, e1, -⟩ := idx_facts t
  show (V c main_arg7 : Mat 128 32) (((cfg1.win 4).blk t).view.emb (ix2 j q)) = _
  refine congrArg (V c main_arg7 : Mat 128 32) (funext fun a => Fin.ext ?_)
  match a with
  | ⟨0, _⟩ => show win1_4.index t (0 : Fin 2) * 128 + 1 * j.val = j.val; omega
  | ⟨1, _⟩ => show win1_4.index t (1 : Fin 2) * 32 + 1 * q.val = q.val; omega

/-- Entry (p, q) of the output block at point `t` sits at (2000 t + p, q) of the array. -/
theorem out_emb (t : Fin cfg1.N) (p : Fin 2000) (q : Fin 32) :
    ((cfg1.win 5).blk t).view.emb (ix2 p q) = (ix2 (row t p) q : S50000x32.Idx) := by
  obtain ⟨-, -, -, -, -, -, -, -, -, -, e0, e1⟩ := idx_facts t
  refine funext fun a => Fin.ext ?_
  match a with
  | ⟨0, _⟩ => show win1_5.index t (0 : Fin 2) * 2000 + 1 * p.val = t.val * 2000 + p.val; omega
  | ⟨1, _⟩ => show win1_5.index t (1 : Fin 2) * 32 + 1 * q.val = q.val; omega

/-- The SAGE layer of the arrays the region finds. -/
abbrev layer (c : Dev nD) : Mat 50000 32 :=
  sageF leakyAt (V c main_v9 : Mat 50000 128) (V c main_v5 : Mat 50000 128) (V c main_arg5 : Mat 128 32) (V c main_arg7 : Mat 128 32)
    (fun q => (V c main_v10 : Mat 1 32) (ix2 0 q))

/-- What point `t` writes back is block `t` of the layer. -/
theorem flushed_eq (c : Dev nD) (t : Fin cfg1.N) :
    (dat1 (F := Ideal) V c).flushed 5 t = ((cfg1.win 5).blk t).view.read (Elt Ideal) (layer V c) := by
  show (cfg1.win 5).cut (grid1.coords t) ((dat1 (F := Ideal) V c).after 5 t) = _
  rw [after1_5]
  unfold out1_5
  rw [View.canon_unit_zero hz]
  simp only [View.ld_unit_zero (S := S2000x128) hz, View.ld_unit_zero (S := S128x32) hz, View.ld_unit_zero (S := S1x32) hz]
  funext j
  obtain ⟨p, q, rfl⟩ : ∃ (p : Fin 2000) (q : Fin 32), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = layer V c (((cfg1.win 5).blk t).view.emb (ix2 p q))
  rw [out_emb t p q]
  refine (pay_at _ _ _ _ _ p q).trans ?_
  show leakyAt _ = leakyAt _
  refine congrArg leakyAt ?_
  refine congrArg₂ (· + ·) (congrArg₂ (· + ·) ?_ ?_) ?_
  · unfold rowDot
    exact Finset.sum_congr rfl fun j _ => congrArg₂ (· * ·) (agg_at V c t p j) (wl_at V c t j q)
  · unfold rowDot
    exact Finset.sum_congr rfl fun j _ => congrArg₂ (· * ·) (feat_at V c t p j) (wr_at V c t j q)
  · exact bias_at V c t 0 q

/-- An index of the array is in point `t`'s block iff each coordinate is in the block's range on its axis. -/
theorem mem_blk (t : Fin cfg1.N) (i : S50000x32.Idx) :
    i ∈ ((cfg1.win 5).blk t).view.set ↔ ∀ a : Fin 2, win1_5.index t a * S2000x32.size a ≤ (i a).val ∧ (i a).val < win1_5.index t a * S2000x32.size a + S2000x32.size a := by
  show i ∈ ((View.whole main_v11).slice (win1_5.rect t)).set ↔ _
  rw [View.set_slice_whole, Rect.mem_set_unit]
  exact Iff.rfl

/-- Row r of the array is in the block of point r / 2000. -/
theorem cover (i : S50000x32.Idx) : ∃ t : Fin cfg1.N, (cfg1.win 5).flush t = true ∧ i ∈ ((cfg1.win 5).blk t).view.set := by
  have hi0 : (i 0).val < 50000 := (i 0).isLt
  have hi1 : (i 1).val < 32 := (i 1).isLt
  have hq : (i 0).val / 2000 < 25 := by omega
  obtain ⟨t, ht⟩ : ∃ t : Fin cfg1.N, t.val = (i 0).val / 2000 := ⟨⟨(i 0).val / 2000, Nat.lt_of_lt_of_eq hq N_1.symm⟩, rfl⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 32 ≤ (i 1).val ∧ (i 1).val < win1_5.index t (1 : Fin 2) * 32 + 32; omega

/-- The output array after the run: the SAGE layer of the arrays the region finds. -/
theorem value1 (c : Dev nD) :
    ((dat1 (F := Ideal) V c).arrAt 5 cfg1.N : S50000x32.Idx → EReal)
      = sageF leakyAt (V c main_v9 : Mat 50000 128) (V c main_v5 : Mat 50000 128) (V c main_arg5 : Mat 128 32) (V c main_arg7 : Mat 128 32)
          (fun q => (V c main_v10 : Mat 1 32) (ix2 0 q)) :=
  (dat1 (F := Ideal) V c).arrAt_eq_of_cover 5 (layer V c) (fun t _ => flushed_eq V c t) cover

end Cert.KernelIdeal.Reg1

end
-- ==== Proof.Reg2.lean ====
/-
  The second SAGE layer's pallas_call, read as one whole-array function. The grid has 25 points; point t stores rows
  2000·t … 2000·t + 1999 of the output. Entry (p, q) of its block is the leaky activation of the row p of the aggregated-neighbour block
  against column q of the left weight matrix, plus row p of the node-feature block against column q of the right weight
  matrix, plus the bias row's entry q (32 contracted positions, 64 output columns). The weight matrices and the bias row
  are resident whole at every point; the 25 row blocks tile the 50000 rows.
-/
import proofs.«401523_j2774548873916_1_alg».proof.Proof.Gen.KernelIdeal.Frame
import proofs.«401523_j2774548873916_1_alg».proof.Proof.LibSageSpec
import proofs.«401523_j2774548873916_1_alg».proof.Proof.KDots
import Idealize.ShloMosaic.Lib.Pipeline.Value

set_option maxRecDepth 16384

noncomputable section

namespace Cert.KernelIdeal.Reg2

open Cert.KernelIdeal Cert.KernelIdeal.Gen
open Idealize.ShloMosaic Idealize.ShloMosaic.TcCoe Idealize.SL.Sem
open Idealize.ShloMosaic.Pipeline (Dat Cfg Window)
open Idealize.ShloMosaic.SageSpec Idealize.ShloMosaic.ValueIdx

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry (p, q) of what the body stores, over any loaded blocks. -/
theorem pay_at (x0 x1 : Vec Ideal S2000x32 .f32) (x2 x4 : Vec Ideal S32x64 .f32) (x3 : Vec Ideal S1x64 .f32)
    (p : Fin 2000) (q : Fin 64) :
    k2_pay1 (F := Ideal) x0 x1 x2 x4 x3 (ix2 p q)
      = leakyAt (rowDot (fun i => x0 i) (fun i => x2 i) p q + rowDot (fun i => x1 i) (fun i => x4 i) p q + x3 (ix2 0 q)) := by
  unfold k2_pay1
  show leakyAt _ = leakyAt _
  refine congrArg leakyAt ?_
  refine congrArg₂ (· + ·) (congrArg₂ (· + ·) ?_ ?_) ?_
  · rw [shapeCast_self]
    exact matmul_zero_at Cert.KernelIdeal.Dots.plain2 none _ _ (ix2 p q)
  · rw [shapeCast_self]
    exact matmul_zero_at Cert.KernelIdeal.Dots.plain2 none _ _ (ix2 p q)
  · rw [shapeCast_self]
    exact broadcastTo_apply x3 _ (ix2 p q) (ix2 0 q) (fun a => by
      match a with
      | ⟨0, _⟩ => rfl
      | ⟨1, _⟩ => rfl)

/-- The grid has 25 points. -/
theorem point_lt (t : Fin cfg2.N) : t.val < 25 := Nat.lt_of_lt_of_eq t.isLt N_2

/-- The array row that row `p` of point `t`'s block is. -/
def row (t : Fin cfg2.N) (p : Fin 2000) : Fin 50000 :=
  ⟨t.val * 2000 + p.val, by have := point_lt t; have := p.isLt; omega⟩

/-- The printed index maps over the grid: the three row-blocked windows sit at block (t, 0), the three resident ones
    at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the aggregated-neighbour block at point `t` is row `2000 t + p` of the array. -/
theorem agg_at (c : Dev nD) (t : Fin cfg2.N) (p : Fin 2000) (j : Fin 32) :
    iblk2 (F := Ideal) V c 0 t (ix2 p j) = (V c main_v15 : Mat 50000 32) (ix2 (row t p) j) := by
  obtain ⟨e0, e1, -⟩ := idx_facts t
  show (V c main_v15 : Mat 50000 32) (((cfg2.win 0).blk t).view.emb (ix2 p j)) = _
  refine congrArg (V c main_v15 : Mat 50000 32) (funext fun a => Fin.ext ?_)
  match a with
  | ⟨0, _⟩ => show win2_0.index t (0 : Fin 2) * 2000 + 1 * p.val = t.val * 2000 + p.val; omega
  | ⟨1, _⟩ => show win2_0.index t (1 : Fin 2) * 32 + 1 * j.val = j.val; omega

/-- Row `p` of the node-feature block at point `t` is row `2000 t + p` of the array. -/
theorem feat_at (c : Dev nD) (t : Fin cfg2.N) (p : Fin 2000) (j : Fin 32) :
    iblk2 (F := Ideal) V c 1 t (ix2 p j) = (V c main_v11 : Mat 50000 32) (ix2 (row t p) j) := by
  obtain ⟨-, -, e0, e1, -⟩ := idx_facts t
  show (V c main_v11 : Mat 50000 32) (((cfg2.win 1).blk t).view.emb (ix2 p j)) = _
  refine congrArg (V c main_v11 : Mat 50000 32) (funext fun a => Fin.ext ?_)
  match a with
  | ⟨0, _⟩ => show win2_1.index t (0 : Fin 2) * 2000 + 1 * p.val = t.val * 2000 + p.val; omega
  | ⟨1, _⟩ => show win2_1.index t (1 : Fin 2) * 32 + 1 * j.val = j.val; omega

/-- The left weight matrix is resident whole at every point. -/
theorem wl_at (c : Dev nD) (t : Fin cfg2.N) (j : Fin 32) (q : Fin 64) :
    iblk2 (F := Ideal) V c 2 t (ix2 j q) = (V c main_arg8 : Mat 32 64) (ix2 j q) := by
  obtain ⟨-, -, -, -, e0, e1, -⟩ := idx_facts t
  show (V c main_arg8 : Mat 32 64) (((cfg2.win 2).blk t).view.emb (ix2 j q)) = _
  refine congrArg (V c main_arg8 : Mat 32 64) (funext fun a => Fin.ext ?_)
  match a with
  | ⟨0, _⟩ => show win2_2.index t (0 : Fin 2) * 32 + 1 * j.val = j.val; omega
  | ⟨1, _⟩ => show win2_2.index t (1 : Fin 2) * 64 + 1 * q.val = q.val; omega

/-- The bias row is resident whole at every point. -/
theorem bias_at (c : Dev nD) (t : Fin cfg2.N) (z : Fin 1) (q : Fin 64) :
    iblk2 (F := Ideal) V c 3 t (ix2 z q) = (V c main_v16 : Mat 1 64) (ix2 z q) := by
  obtain ⟨-, -, -, -, -, -, e0, e1, -⟩ := idx_facts t
  show (V c main_v16 : Mat 1 64) (((cfg2.win 3).blk t).view.emb (ix2 z q)) = _
  refine congrArg (V c main_v16 : Mat 1 64) (funext fun a => Fin.ext ?_)
  match a with
  | ⟨0, _⟩ => show win2_3.index t (0 : Fin 2) * 1 + 1 * z.val = z.val; omega
  | ⟨1, _⟩ => show win2_3.index t (1 : Fin 2) * 64 + 1 * q.val = q.val; omega

/-- The right weight matrix is resident whole at every point. -/
theorem wr_at (c : Dev nD) (t : Fin cfg2.N) (j : Fin 32) (q : Fin 64) :
    iblk2 (F := Ideal) V c 4 t (ix2 j q) = (V c main_arg10 : Mat 32 64) (ix2 j q) := by
  obtain ⟨-, -, -, -, -, -, -, -, e0, e1, -⟩ := idx_facts t
  show (V c main_arg10 : Mat 32 64) (((cfg2.win 4).blk t).view.emb (ix2 j q)) = _
  refine congrArg (V c main_arg10 : Mat 32 64) (funext fun a => Fin.ext ?_)
  match a with
  | ⟨0, _⟩ => show win2_4.index t (0 : Fin 2) * 32 + 1 * j.val = j.val; omega
  | ⟨1, _⟩ => show win2_4.index t (1 : Fin 2) * 64 + 1 * q.val = q.val; omega

/-- Entry (p, q) of the output block at point `t` sits at (2000 t + p, q) of the array. -/
theorem out_emb (t : Fin cfg2.N) (p : Fin 2000) (q : Fin 64) :
    ((cfg2.win 5).blk t).view.emb (ix2 p q) = (ix2 (row t p) q : S50000x64.Idx) := by
  obtain ⟨-, -, -, -, -, -, -, -, -, -, e0, e1⟩ := idx_facts t
  refine funext fun a => Fin.ext ?_
  match a with
  | ⟨0, _⟩ => show win2_5.index t (0 : Fin 2) * 2000 + 1 * p.val = t.val * 2000 + p.val; omega
  | ⟨1, _⟩ => show win2_5.index t (1 : Fin 2) * 64 + 1 * q.val = q.val; omega

/-- The SAGE layer of the arrays the region finds. -/
abbrev layer (c : Dev nD) : Mat 50000 64 :=
  sageF leakyAt (V c main_v15 : Mat 50000 32) (V c main_v11 : Mat 50000 32) (V c main_arg8 : Mat 32 64) (V c main_arg10 : Mat 32 64)
    (fun q => (V c main_v16 : Mat 1 64) (ix2 0 q))

/-- What point `t` writes back is block `t` of the layer. -/
theorem flushed_eq (c : Dev nD) (t : Fin cfg2.N) :
    (dat2 (F := Ideal) V c).flushed 5 t = ((cfg2.win 5).blk t).view.read (Elt Ideal) (layer V c) := by
  show (cfg2.win 5).cut (grid2.coords t) ((dat2 (F := Ideal) V c).after 5 t) = _
  rw [after2_5]
  unfold out2_5
  rw [View.canon_unit_zero hz]
  simp only [View.ld_unit_zero (S := S2000x32) hz, View.ld_unit_zero (S := S32x64) hz, View.ld_unit_zero (S := S1x64) hz]
  funext j
  obtain ⟨p, q, rfl⟩ : ∃ (p : Fin 2000) (q : Fin 64), j = ix2 p q := ⟨j 0, j 1, eq_ix2 j⟩
  show k2_pay1 (F := Ideal) (iblk2 V c 0 t) (iblk2 V c 1 t) (iblk2 V c 2 t) (iblk2 V c 4 t) (iblk2 V c 3 t) (ix2 p q)
    = layer V c (((cfg2.win 5).blk t).view.emb (ix2 p q))
  rw [out_emb t p q]
  refine (pay_at _ _ _ _ _ p q).trans ?_
  show leakyAt _ = leakyAt _
  refine congrArg leakyAt ?_
  refine congrArg₂ (· + ·) (congrArg₂ (· + ·) ?_ ?_) ?_
  · unfold rowDot
    exact Finset.sum_congr rfl fun j _ => congrArg₂ (· * ·) (agg_at V c t p j) (wl_at V c t j q)
  · unfold rowDot
    exact Finset.sum_congr rfl fun j _ => congrArg₂ (· * ·) (feat_at V c t p j) (wr_at V c t j q)
  · exact bias_at V c t 0 q

/-- An index of the array is in point `t`'s block iff each coordinate is in the block's range on its axis. -/
theorem mem_blk (t : Fin cfg2.N) (i : S50000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v17).slice (win2_5.rect t)).set ↔ _
  rw [View.set_slice_whole, Rect.mem_set_unit]
  exact Iff.rfl

/-- Row r of the array is in the block of point r / 2000. -/
theorem cover (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hq : (i 0).val / 2000 < 25 := by omega
  obtain ⟨t, ht⟩ : ∃ t : Fin cfg2.N, t.val = (i 0).val / 2000 := ⟨⟨(i 0).val / 2000, Nat.lt_of_lt_of_eq hq N_2.symm⟩, rfl⟩
  obtain ⟨-, -, -, -, -, -, -, -, -, -, e0, e1⟩ := idx_facts t
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

/-- The output array after the run: the SAGE layer of the arrays the region finds. -/
theorem value2 (c : Dev nD) :
    ((dat2 (F := Ideal) V c).arrAt 5 cfg2.N : S50000x64.Idx → EReal)
      = sageF leakyAt (V c main_v15 : Mat 50000 32) (V c main_v11 : Mat 50000 32) (V c main_arg8 : Mat 32 64) (V c main_arg10 : Mat 32 64)
          (fun q => (V c main_v16 : Mat 1 64) (ix2 0 q)) :=
  (dat2 (F := Ideal) V c).arrAt_eq_of_cover 5 (layer V c) (fun t _ => flushed_eq V c t) cover

end Cert.KernelIdeal.Reg2

end
-- ==== Proof.Reg3.lean ====
/-
  The third SAGE layer's pallas_call, read as one whole-array function. The grid has 25 points; point t stores rows
  2000·t … 2000·t + 1999 of the output. Entry (p, q) of its block is the row p of the aggregated-neighbour block
  against column q of the left weight matrix, plus row p of the node-feature block against column q of the right weight
  matrix, plus the bias row's entry q (64 contracted positions, 128 output columns). The weight matrices and the bias row
  are resident whole at every point; the 25 row blocks tile the 50000 rows.
-/
import proofs.«401523_j2774548873916_1_alg».proof.Proof.Gen.KernelIdeal.Frame
import proofs.«401523_j2774548873916_1_alg».proof.Proof.LibSageSpec
import proofs.«401523_j2774548873916_1_alg».proof.Proof.KDots
import Idealize.ShloMosaic.Lib.Pipeline.Value

set_option maxRecDepth 16384

noncomputable section

namespace Cert.KernelIdeal.Reg3

open Cert.KernelIdeal Cert.KernelIdeal.Gen
open Idealize.ShloMosaic Idealize.ShloMosaic.TcCoe Idealize.SL.Sem
open Idealize.ShloMosaic.Pipeline (Dat Cfg Window)
open Idealize.ShloMosaic.SageSpec Idealize.ShloMosaic.ValueIdx

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry (p, q) of what the body stores, over any loaded blocks: the two products and the bias, nothing after. -/
theorem pay_at (x0 x1 : Vec Ideal S2000x64 .f32) (x2 x4 : Vec Ideal S64x128 .f32) (x3 : Vec Ideal S1x128 .f32)
    (p : Fin 2000) (q : Fin 128) :
    k3_pay1 (F := Ideal) x0 x1 x2 x4 x3 (ix2 p q)
      = rowDot (fun i => x0 i) (fun i => x2 i) p q + rowDot (fun i => x1 i) (fun i => x4 i) p q + x3 (ix2 0 q) := by
  unfold k3_pay1
  refine congrArg₂ (· + ·) (congrArg₂ (· + ·) ?_ ?_) ?_
  · rw [shapeCast_self]
    exact matmul_zero_at Cert.KernelIdeal.Dots.plain3 none _ _ (ix2 p q)
  · rw [shapeCast_self]
    exact matmul_zero_at Cert.KernelIdeal.Dots.plain3 none _ _ (ix2 p q)
  · rw [shapeCast_self]
    exact broadcastTo_apply x3 _ (ix2 p q) (ix2 0 q) (fun a => by
      match a with
      | ⟨0, _⟩ => rfl
      | ⟨1, _⟩ => rfl)

/-- The grid has 25 points. -/
theorem point_lt (t : Fin cfg3.N) : t.val < 25 := Nat.lt_of_lt_of_eq t.isLt N_3

/-- The array row that row `p` of point `t`'s block is. -/
def row (t : Fin cfg3.N) (p : Fin 2000) : Fin 50000 :=
  ⟨t.val * 2000 + p.val, by have := point_lt t; have := p.isLt; omega⟩

/-- The printed index maps over the grid: the three row-blocked windows sit at block (t, 0), the three resident ones
    at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of the aggregated-neighbour block at point `t` is row `2000 t + p` of the array. -/
theorem agg_at (c : Dev nD) (t : Fin cfg3.N) (p : Fin 2000) (j : Fin 64) :
    iblk3 (F := Ideal) V c 0 t (ix2 p j) = (V c main_v21 : Mat 50000 64) (ix2 (row t p) j) := by
  obtain ⟨e0, e1, -⟩ := idx_facts t
  show (V c main_v21 : Mat 50000 64) (((cfg3.win 0).blk t).view.emb (ix2 p j)) = _
  refine congrArg (V c main_v21 : Mat 50000 64) (funext fun a => Fin.ext ?_)
  match a with
  | ⟨0, _⟩ => show win3_0.index t (0 : Fin 2) * 2000 + 1 * p.val = t.val * 2000 + p.val; omega
  | ⟨1, _⟩ => show win3_0.index t (1 : Fin 2) * 64 + 1 * j.val = j.val; omega

/-- Row `p` of the node-feature block at point `t` is row `2000 t + p` of the array. -/
theorem feat_at (c : Dev nD) (t : Fin cfg3.N) (p : Fin 2000) (j : Fin 64) :
    iblk3 (F := Ideal) V c 1 t (ix2 p j) = (V c main_v17 : Mat 50000 64) (ix2 (row t p) j) := by
  obtain ⟨-, -, e0, e1, -⟩ := idx_facts t
  show (V c main_v17 : Mat 50000 64) (((cfg3.win 1).blk t).view.emb (ix2 p j)) = _
  refine congrArg (V c main_v17 : Mat 50000 64) (funext fun a => Fin.ext ?_)
  match a with
  | ⟨0, _⟩ => show win3_1.index t (0 : Fin 2) * 2000 + 1 * p.val = t.val * 2000 + p.val; omega
  | ⟨1, _⟩ => show win3_1.index t (1 : Fin 2) * 64 + 1 * j.val = j.val; omega

/-- The left weight matrix is resident whole at every point. -/
theorem wl_at (c : Dev nD) (t : Fin cfg3.N) (j : Fin 64) (q : Fin 128) :
    iblk3 (F := Ideal) V c 2 t (ix2 j q) = (V c main_arg11 : Mat 64 128) (ix2 j q) := by
  obtain ⟨-, -, -, -, e0, e1, -⟩ := idx_facts t
  show (V c main_arg11 : Mat 64 128) (((cfg3.win 2).blk t).view.emb (ix2 j q)) = _
  refine congrArg (V c main_arg11 : Mat 64 128) (funext fun a => Fin.ext ?_)
  match a with
  | ⟨0, _⟩ => show win3_2.index t (0 : Fin 2) * 64 + 1 * j.val = j.val; omega
  | ⟨1, _⟩ => show win3_2.index t (1 : Fin 2) * 128 + 1 * q.val = q.val; omega

/-- The bias row is resident whole at every point. -/
theorem bias_at (c : Dev nD) (t : Fin cfg3.N) (z : Fin 1) (q : Fin 128) :
    iblk3 (F := Ideal) V c 3 t (ix2 z q) = (V c main_v22 : Mat 1 128) (ix2 z q) := by
  obtain ⟨-, -, -, -, -, -, e0, e1, -⟩ := idx_facts t
  show (V c main_v22 : Mat 1 128) (((cfg3.win 3).blk t).view.emb (ix2 z q)) = _
  refine congrArg (V c main_v22 : Mat 1 128) (funext fun a => Fin.ext ?_)
  match a with
  | ⟨0, _⟩ => show win3_3.index t (0 : Fin 2) * 1 + 1 * z.val = z.val; omega
  | ⟨1, _⟩ => show win3_3.index t (1 : Fin 2) * 128 + 1 * q.val = q.val; omega

/-- The right weight matrix is resident whole at every point. -/
theorem wr_at (c : Dev nD) (t : Fin cfg3.N) (j : Fin 64) (q : Fin 128) :
    iblk3 (F := Ideal) V c 4 t (ix2 j q) = (V c main_arg13 : Mat 64 128) (ix2 j q) := by
  obtain ⟨-, -, -, -, -, -, -, -, e0, e1, -⟩ := idx_facts t
  show (V c main_arg13 : Mat 64 128) (((cfg3.win 4).blk t).view.emb (ix2 j q)) = _
  refine congrArg (V c main_arg13 : Mat 64 128) (funext fun a => Fin.ext ?_)
  match a with
  | ⟨0, _⟩ => show win3_4.index t (0 : Fin 2) * 64 + 1 * j.val = j.val; omega
  | ⟨1, _⟩ => show win3_4.index t (1 : Fin 2) * 128 + 1 * q.val = q.val; omega

/-- Entry (p, q) of the output block at point `t` sits at (2000 t + p, q) of the array. -/
theorem out_emb (t : Fin cfg3.N) (p : Fin 2000) (q : Fin 128) :
    ((cfg3.win 5).blk t).view.emb (ix2 p q) = (ix2 (row t p) q : S50000x128.Idx) := by
  obtain ⟨-, -, -, -, -, -, -, -, -, -, e0, e1⟩ := idx_facts t
  refine funext fun a => Fin.ext ?_
  match a with
  | ⟨0, _⟩ => show win3_5.index t (0 : Fin 2) * 2000 + 1 * p.val = t.val * 2000 + p.val; omega
  | ⟨1, _⟩ => show win3_5.index t (1 : Fin 2) * 128 + 1 * q.val = q.val; omega

/-- The SAGE layer, with nothing applied after the bias, of the arrays the region finds. -/
abbrev layer (c : Dev nD) : Mat 50000 128 :=
  sageF (fun s => s) (V c main_v21 : Mat 50000 64) (V c main_v17 : Mat 50000 64) (V c main_arg11 : Mat 64 128) (V c main_arg13 : Mat 64 128)
    (fun q => (V c main_v22 : Mat 1 128) (ix2 0 q))

/-- What point `t` writes back is block `t` of the layer. -/
theorem flushed_eq (c : Dev nD) (t : Fin cfg3.N) :
    (dat3 (F := Ideal) V c).flushed 5 t = ((cfg3.win 5).blk t).view.read (Elt Ideal) (layer V c) := by
  show (cfg3.win 5).cut (grid3.coords t) ((dat3 (F := Ideal) V c).after 5 t) = _
  rw [after3_5]
  unfold out3_5
  rw [View.canon_unit_zero hz]
  simp only [View.ld_unit_zero (S := S2000x64) hz, View.ld_unit_zero (S := S64x128) hz, View.ld_unit_zero (S := S1x128) hz]
  funext j
  obtain ⟨p, q, rfl⟩ : ∃ (p : Fin 2000) (q : Fin 128), j = ix2 p q := ⟨j 0, j 1, eq_ix2 j⟩
  show k3_pay1 (F := Ideal) (iblk3 V c 0 t) (iblk3 V c 1 t) (iblk3 V c 2 t) (iblk3 V c 4 t) (iblk3 V c 3 t) (ix2 p q)
    = layer V c (((cfg3.win 5).blk t).view.emb (ix2 p q))
  rw [out_emb t p q]
  refine (pay_at _ _ _ _ _ p q).trans ?_
  show _ = rowDot (V c main_v21 : Mat 50000 64) (V c main_arg11 : Mat 64 128) (row t p) q
      + rowDot (V c main_v17 : Mat 50000 64) (V c main_arg13 : Mat 64 128) (row t p) q + (V c main_v22 : Mat 1 128) (ix2 0 q)
  refine congrArg₂ (· + ·) (congrArg₂ (· + ·) ?_ ?_) ?_
  · unfold rowDot
    exact Finset.sum_congr rfl fun j _ => congrArg₂ (· * ·) (agg_at V c t p j) (wl_at V c t j q)
  · unfold rowDot
    exact Finset.sum_congr rfl fun j _ => congrArg₂ (· * ·) (feat_at V c t p j) (wr_at V c t j q)
  · exact bias_at V c t 0 q

/-- An index of the array is in point `t`'s block iff each coordinate is in the block's range on its axis. -/
theorem mem_blk (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v23).slice (win3_5.rect t)).set ↔ _
  rw [View.set_slice_whole, Rect.mem_set_unit]
  exact Iff.rfl

/-- Row r of the array is in the block of point r / 2000. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hq : (i 0).val / 2000 < 25 := by omega
  obtain ⟨t, ht⟩ : ∃ t : Fin cfg3.N, t.val = (i 0).val / 2000 := ⟨⟨(i 0).val / 2000, Nat.lt_of_lt_of_eq hq N_3.symm⟩, rfl⟩
  obtain ⟨-, -, -, -, -, -, -, -, -, -, e0, e1⟩ := idx_facts t
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- The output array after the run: the SAGE layer (no activation after the third) of the arrays the region finds. -/
theorem value3 (c : Dev nD) :
    ((dat3 (F := Ideal) V c).arrAt 5 cfg3.N : S50000x128.Idx → EReal)
      = sageF (fun s => s) (V c main_v21 : Mat 50000 64) (V c main_v17 : Mat 50000 64) (V c main_arg11 : Mat 64 128) (V c main_arg13 : Mat 64 128)
          (fun q => (V c main_v22 : Mat 1 128) (ix2 0 q)) :=
  (dat3 (F := Ideal) V c).arrAt_eq_of_cover 5 (layer V c) (fun t _ => flushed_eq V c t) cover

end Cert.KernelIdeal.Reg3

end
-- ==== Proof.Reg4.lean ====
/-
  The final projection's pallas_call, read as one whole-array function. Its grid has one point, whose block is the whole
  [1000 × 128] pooled matrix: entry (p, q) of the output is row p of the pooled matrix against column q of the weight
  matrix plus the bias row's entry q.
-/
import proofs.«401523_j2774548873916_1_alg».proof.Proof.Gen.KernelIdeal.Frame
import proofs.«401523_j2774548873916_1_alg».proof.Proof.LibSageSpec
import proofs.«401523_j2774548873916_1_alg».proof.Proof.KDots
import Idealize.ShloMosaic.Lib.Pipeline.Value

set_option maxRecDepth 16384

noncomputable section

namespace Cert.KernelIdeal.Reg4

open Cert.KernelIdeal Cert.KernelIdeal.Gen
open Idealize.ShloMosaic Idealize.ShloMosaic.TcCoe Idealize.SL.Sem
open Idealize.ShloMosaic.Pipeline (Dat Cfg Window)
open Idealize.ShloMosaic.SageSpec Idealize.ShloMosaic.ValueIdx

-- the TensorCore's buffer contents when the region is entered
variable (V : (c : Dev nD) → (b : Ref sig .tc) → Buf (Elt Ideal) ((c : Thread nD τ).loc b))

/-- The zero offsets of a whole-block load or store, as a constant function. -/
theorem zero_offsets : (![0, 0] : Fin 2 → Nat) = fun _ => 0 := funext fun a => by fin_cases a <;> rfl

/-- The body's one stored value at (p, q): row p of the loaded pooled block (cast to its own shape) against column q of
    the loaded weights (the two changes of format are the identity at the extended reals, and the product starts from a
    zero accumulator), plus the bias row's entry q (the row is cast to its own shape and broadcast down the 1000 rows). -/
theorem stored_at (x0 : FVec Ideal S1000x128 .f32) (x1 : FVec Ideal S128x256 .f32) (x2 : FVec Ideal S1x256 .f32)
    (p : Fin 1000) (q : Fin 256) :
    (k4_pay1 (F := Ideal) x0 x1 x2) (ix2 p q)
      = rowDot (x0 : Mat 1000 128) (x1 : Mat 128 256) p q + x2 (ix2 0 q) := by
  unfold k4_pay1
  show ((FloatOps.matmul (F := Ideal) dot_S1000x128_S128x256_S1000x256_1_0_0_1_n_n none
          (truncf .bf16 (shapeCast S1000x128 x0 shapeCasts_S1000x128_S1000x128) bitsLt_bf16_f32) (truncf .bf16 x1 bitsLt_bf16_f32)
          (constant S1000x256 .f32 0x00000000#32) (ix2 p q) : EReal)
      + (broadcastTo S1000x256 (shapeCast S1x256 x2 shapeCasts_S1x256_S1x256) broadcasts_S1x256_S1000x256 (ix2 p q) : EReal)) = _
  rw [shapeCast_self x0, shapeCast_self x2]
  refine congrArg₂ (· + ·) ((matmul_zero_at Cert.KernelIdeal.Dots.plain4 none _ _ (ix2 p q)).trans rfl) ?_
  refine broadcastTo_apply x2 broadcasts_S1x256_S1000x256 (ix2 p q) (ix2 0 q) ?_
  intro a
  match a with
  | ⟨0, _⟩ => rfl
  | ⟨1, _⟩ => rfl

/-- The printed index maps, decided over the grid's one point: every window sits at block (0, 0). -/
theorem index_maps : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The pooled block at the point is the whole pooled matrix. -/
theorem x_block_at (c : Dev nD) (t : Fin cfg4.N) (p : Fin 1000) (κ : Fin 128) :
    (iblk4 V c 0 t : Vec Ideal S1000x128 .f32) (ix2 p κ) = (V c main_v34 : Mat 1000 128) (ix2 p κ) := by
  obtain ⟨e0, e1, -⟩ := index_maps t
  unfold iblk4
  show (V c main_v34 : Mat 1000 128) (((cfg4.win 0).blk t).view.emb (ix2 p κ)) = _
  refine congrArg (V c main_v34 : Mat 1000 128) (funext fun a => Fin.ext ?_)
  match a with
  | ⟨0, _⟩ => show win4_0.index t (0 : Fin 2) * 1000 + 1 * p.val = p.val; omega
  | ⟨1, _⟩ => show win4_0.index t (1 : Fin 2) * 128 + 1 * κ.val = κ.val; omega

/-- The weight block at the point is the whole weight matrix. -/
theorem w_block_at (c : Dev nD) (t : Fin cfg4.N) (κ : Fin 128) (q : Fin 256) :
    (iblk4 V c 1 t : Vec Ideal S128x256 .f32) (ix2 κ q) = (V c main_arg14 : Mat 128 256) (ix2 κ q) := by
  obtain ⟨-, -, e2, e3, -⟩ := index_maps t
  unfold iblk4
  show (V c main_arg14 : Mat 128 256) (((cfg4.win 1).blk t).view.emb (ix2 κ q)) = _
  refine congrArg (V c main_arg14 : Mat 128 256) (funext fun a => Fin.ext ?_)
  match a with
  | ⟨0, _⟩ => show win4_1.index t (0 : Fin 2) * 128 + 1 * κ.val = κ.val; omega
  | ⟨1, _⟩ => show win4_1.index t (1 : Fin 2) * 256 + 1 * q.val = q.val; omega

/-- The bias block at the point is the whole bias row. -/
theorem b_block_at (c : Dev nD) (t : Fin cfg4.N) (q : Fin 256) :
    (iblk4 V c 2 t : Vec Ideal S1x256 .f32) (ix2 0 q) = (V c main_v35 : Mat 1 256) (ix2 0 q) := by
  obtain ⟨-, -, -, -, e4, e5, -⟩ := index_maps t
  unfold iblk4
  show (V c main_v35 : Mat 1 256) (((cfg4.win 2).blk t).view.emb (ix2 0 q)) = _
  refine congrArg (V c main_v35 : Mat 1 256) (funext fun a => Fin.ext ?_)
  match a with
  | ⟨0, _⟩ => show win4_2.index t (0 : Fin 2) * 1 + 1 * (0 : Fin 1).val = (0 : Fin 1).val; omega
  | ⟨1, _⟩ => show win4_2.index t (1 : Fin 2) * 256 + 1 * q.val = q.val; omega

/-- WHAT THE POINT WRITES BACK is the block of the linear layer of the arrays the region finds: the block is the whole
    output, entry (p, q) of it sits at (p, q), and there the layer's row is the pooled block's row p. -/
theorem flushed_eq (c : Dev nD) (t : Fin cfg4.N) :
    (dat4 (F := Ideal) V c).flushed 3 t = ((cfg4.win 3).blk t).view.read (Elt Ideal)
      (linF (V c main_v34 : Mat 1000 128) (V c main_arg14 : Mat 128 256) (fun q => (V c main_v35 : Mat 1 256) (ix2 0 q))) := by
  show (cfg4.win 3).cut (grid4.coords t) ((dat4 V c).after 3 t) = _
  rw [after4_3]
  unfold out4_3
  rw [View.canon_unit_zero zero_offsets]
  simp only [View.ld_unit_zero (S := S1000x128) zero_offsets, View.ld_unit_zero (S := S128x256) zero_offsets,
    View.ld_unit_zero (S := S1x256) zero_offsets]
  refine funext fun (j : S1000x256.Idx) => ?_
  obtain ⟨p, q, rfl⟩ : ∃ (p : Fin 1000) (q : Fin 256), j = ix2 p q := ⟨j 0, j 1, eq_ix2 j⟩
  obtain ⟨-, -, -, -, -, -, e6, e7⟩ := index_maps t
  have hin : (cfg4.win 3).xinj (grid4.coords t) (ix2 p q) = (ix2 p q : S1000x256.Idx) := funext fun a => by
    match a with
    | ⟨0, _⟩ => rfl
    | ⟨1, _⟩ => rfl
  have hout : ((cfg4.win 3).blk t).view.emb (ix2 p q) = (ix2 p q : S1000x256.Idx) := funext fun a => Fin.ext (by
    match a with
    | ⟨0, _⟩ => show win4_3.index t (0 : Fin 2) * 1000 + 1 * p.val = p.val; omega
    | ⟨1, _⟩ => show win4_3.index t (1 : Fin 2) * 256 + 1 * q.val = q.val; omega)
  refine (congrArg (k4_pay1 (F := Ideal) (iblk4 V c 0 t) (iblk4 V c 1 t) (iblk4 V c 2 t)) hin).trans ?_
  refine (stored_at _ _ _ p q).trans ?_
  refine Eq.trans ?_ (congrArg (linF (V c main_v34 : Mat 1000 128) (V c main_arg14 : Mat 128 256) (fun q => (V c main_v35 : Mat 1 256) (ix2 0 q))) hout).symm
  show _ = rowDot (V c main_v34 : Mat 1000 128) (V c main_arg14 : Mat 128 256) p q + (V c main_v35 : Mat 1 256) (ix2 0 q)
  refine congrArg₂ (· + ·) ?_ (b_block_at V c t q)
  unfold rowDot
  refine Finset.sum_congr rfl fun κ _ => ?_
  rw [x_block_at V c t p κ, w_block_at V c t κ q]

/-- An index of the output array is in point t's block iff each coordinate is in the block's range on its axis. -/
theorem mem_blk (t : Fin cfg4.N) (i : S1000x256.Idx) :
    i ∈ ((cfg4.win 3).blk t).view.set ↔ ∀ a : Fin 2, win4_3.index t a * S1000x256.size a ≤ (i a).val ∧ (i a).val < win4_3.index t a * S1000x256.size a + S1000x256.size a := by
  show i ∈ ((View.whole main_v36).slice (win4_3.rect t)).set ↔ _
  rw [View.set_slice_whole, Rect.mem_set_unit]
  exact Iff.rfl

/-- The one point's block is the whole array, and the point writes back. -/
theorem covered (i : S1000x256.Idx) :
    ∃ t : Fin cfg4.N, (cfg4.win 3).flush t = true ∧ i ∈ ((cfg4.win 3).blk t).view.set := by
  have hi0 : (i 0).val < 1000 := (i 0).isLt
  have hi1 : (i 1).val < 256 := (i 1).isLt
  obtain ⟨t⟩ : Nonempty (Fin cfg4.N) := ⟨⟨0, lt_of_lt_of_eq Nat.one_pos N_4.symm⟩⟩
  obtain ⟨-, -, -, -, -, -, e6, e7⟩ := index_maps t
  refine ⟨t, flush4_3 t, ?_⟩
  rw [mem_blk]
  intro a
  match a with
  | ⟨0, _⟩ => show win4_3.index t (0 : Fin 2) * 1000 ≤ (i 0).val ∧ (i 0).val < win4_3.index t (0 : Fin 2) * 1000 + 1000; omega
  | ⟨1, _⟩ => show win4_3.index t (1 : Fin 2) * 256 ≤ (i 1).val ∧ (i 1).val < win4_3.index t (1 : Fin 2) * 256 + 256; omega

/-- The output array after the run: the linear layer of the arrays the region finds. -/
theorem value4 (c : Dev nD) :
    ((dat4 (F := Ideal) V c).arrAt 3 cfg4.N : S1000x256.Idx → EReal)
      = linF (V c main_v34 : Mat 1000 128) (V c main_arg14 : Mat 128 256) (fun q => (V c main_v35 : Mat 1 256) (ix2 0 q)) :=
  (dat4 (F := Ideal) V c).arrAt_eq_of_cover 3 _ (fun t _ => flushed_eq V c t) covered

end Cert.KernelIdeal.Reg4

end
-- ==== Proof.WalkTac.lean ====
/-
  Reading a buffer back through the fold of @main's segments: a host stretch leaves a buffer it does not write as it
  was, and a pallas_call leaves every buffer that is not one of its windows' arrays as it was. `walk_back` applies
  those two facts as long as one applies, so a goal about a late boundary's contents at an untouched buffer becomes
  the same goal at the earliest boundary that wrote it.
-/
import proofs.«401523_j2774548873916_1_alg».proof.Proof.Gen.KernelIdeal.Frame
import Idealize.ShloMosaic.Lib.StableHlo.Run

open Idealize.ShloMosaic Idealize.ShloMosaic.StableHlo Cert.KernelIdeal.Gen

/-- One step back across a pallas_call whose windows do not hold the buffer. -/
macro "walk_region" : tactic =>
  `(tactic| first
    | rw [W13_of_ne _ _ _ _ (by decide)] | rw [W11_of_ne _ _ _ _ (by decide)] | rw [W8_of_ne _ _ _ _ (by decide)]
    | rw [W5_of_ne _ _ _ _ (by decide)] | rw [W2_of_ne _ _ _ _ (by decide)])

/-- Back across host stretches and pallas_calls until neither applies. -/
macro "walk_back" : tactic =>
  `(tactic| repeat (first | walk_region | (show StableHlo.after _ _ _ = _; after_results)))
-- ==== Proof.WalkDefs.lean ====
/-
  The host operations between the kernel's pallas_calls, as functions of the arrays they read: the source and
  destination rows of the edge list, NumPy's wrap of the source indices into a column of start indices, and the mean
  pooling over graphs (two scatter-adds, a clamp of the counts at one, a division).
-/
import proofs.«401523_j2774548873916_1_alg».proof.Proof.Gen.KernelIdeal.Frame
import Idealize.ShloMosaic.Lib.StableHlo.Run
import proofs.«401523_j2774548873916_1_alg».proof.Proof.WalkTac

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

/-- Row 0 of the edge list, as a vector: the source node of every edge. -/
def srcOf (x1 : IVec S2x800000 32) : IVec S800000 32 :=
  shapeCast S800000 (extractStridedSlice S1x800000 ![0, 0] x1 slices_S2x800000_S1x800000_0_0) shapeCasts_S1x800000_S800000

/-- Row 1 of the edge list, as a vector: the destination node of every edge. -/
def dstOf (x1 : IVec S2x800000 32) : IVec S800000 32 :=
  shapeCast S800000 (extractStridedSlice S1x800000 ![1, 0] x1 slices_S2x800000_S1x800000_1_0) shapeCasts_S1x800000_S800000

/-- The gather's start indices: each source index wrapped (`s + 50000` where `s < 0`), laid out as an [800000 × 1] column. -/
def wrapCol (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Mean pooling over graphs: the rows of `h` summed per graph id, divided by the per-graph row count clamped at one. -/
def poolOf (h : FVec F S50000x128 .f32) (batch : IVec S50000 32) : FVec F S1000x128 .f32 :=
  Host.divf
    (Host.scatterAdd scatter_S1000x128_S50000x1_S50000x128_1_0_0_1 (broadcastInDim S1000x128 ![] bcast_S_S1000x128 (constant S_ .f32 0x00000000#32))
      (broadcastInDim S50000x1 ![0] bcast_S50000_S50000x1_0 batch) h)
    (broadcastInDim S1000x128 ![0, 1] bcast_S1000x1_S1000x128_0_1
      (maximumf
        (Host.scatterAdd scatter_S1000x1_S50000x1_S50000x1_1_0_0_1 (broadcastInDim S1000x1 ![] bcast_S_S1000x1 (constant S_ .f32 0x00000000#32))
          (broadcastInDim S50000x1 ![0] bcast_S50000_S50000x1_0 batch) (broadcastInDim S50000x1 ![] bcast_S_S50000x1 (constant S_ .f32 0x3F800000#32)))
        (broadcastInDim S1000x1 ![] bcast_S_S1000x1 (constant S_ .f32 0x3F800000#32))))

end Cert.KernelIdeal.Host

end
-- ==== Proof.Walk0.lean ====
/-
  What the embedding layer's pallas_call finds: the node features and the weight matrix as launched, and the bias
  vector reshaped to a row. Before it the program only slices the edge list into its two rows and reshapes.
-/
import proofs.«401523_j2774548873916_1_alg».proof.Proof.Gen.KernelIdeal.Frame
import Idealize.ShloMosaic.Lib.StableHlo.Run
import proofs.«401523_j2774548873916_1_alg».proof.Proof.WalkTac
import proofs.«401523_j2774548873916_1_alg».proof.Proof.WalkDefs

set_option maxRecDepth 16384

noncomputable section

namespace Cert.KernelIdeal.Walk0

open Cert.KernelIdeal Cert.KernelIdeal.Gen
open Idealize.ShloMosaic Idealize.ShloMosaic.TcCoe Idealize.SL.Sem Idealize.ShloMosaic.StableHlo

variable {F : FTy → Type} [FloatOps F]
open Cert.KernelIdeal.Host
variable (m : (ℓ : Loc nD τ sig) → Buf (Elt F) ℓ) (ρ : Dev nD → PrngReg)

theorem x (c : Dev nD) : W1 m ρ c (Proc.devRef .tc main_arg0) = m ((c : Thread nD τ).loc main_arg0) := by
  walk_back <;> rfl
theorem w (c : Dev nD) : W1 m ρ c (Proc.devRef .tc main_arg3) = m ((c : Thread nD τ).loc main_arg3) := by
  walk_back <;> rfl
/-- The bias row is the bias vector reshaped. -/
theorem b (c : Dev nD) : W1 m ρ c (Proc.devRef .tc main_v4) = shapeCast S1x128 (m ((c : Thread nD τ).loc main_arg4)) shapeCasts_S128_S1x128 := by
  walk_back <;> rfl

end Cert.KernelIdeal.Walk0

end
-- ==== Proof.LibTakeFill.lean ====
/-
  A gather whose out-of-range rows are replaced by a fill value ("fill mode"): the rows kept are those whose start
  index passes a range test, the test's bits are and-reduced over the index vector's axis, the row mask is laid over
  the result and a `select` keeps the gathered element where the mask is set and the fill elsewhere. When every start
  index passes the test the mask is all ones and the select is the gather itself: nothing is filled. The lemmas are
  generic in every shape and in the compared bounds; they never look inside the gathered values.
-/
import Idealize.ShloMosaic.PureOps
import Idealize.ShloMosaic.Lib.StableHlo.Predicate

noncomputable section

namespace Idealize.ShloMosaic.TakeFill

open Idealize.ShloMosaic

/-- An and-reduction, from the bit one, of a mask whose every bit is one is one at every result index: each step of the
    fold is `1 &&& 1`. No property of the reduced axes is used. -/
theorem reduce_andi_of_all_one {s t u : Shape} {axes : List (Fin s.rank)} (M : IVec s 1) (hM : ∀ i, M i = 1#1)
    (h : s.ReducesTo axes t) (hu : 0 < u.numel) :
    Host.reduce IntOp.andi M (constantI u 1 1#1) h hu = fun _ => 1#1 := by
  funext j
  unfold Host.reduce
  have key : ∀ l : List (Fin s.numel),
      l.foldl (fun r n => IntOp.andi r (M (s.rowMajor.symm n))) (1#1 : BitVec 1) = 1#1 := by
    intro l
    induction l with
    | nil => rfl
    | cons a l ih =>
      rw [List.foldl_cons, hM]
      exact ih
  exact key _

/-- A `select` under a broadcast mask whose every bit is one keeps its first operand everywhere. -/
theorem select_bcast_all_one {α : Type} {s t : Shape} (dims : Fin t.rank → Fin s.rank) (hb : t.BroadcastsInDim s dims)
    (M : IVec t 1) (hM : ∀ i, M i = 1#1) (a b : s.Idx → α) :
    select (broadcastInDim s dims hb M) a b = a := by
  funext j
  unfold select Scalar.select broadcastInDim
  exact if_pos (hM _)

/-- THE FILL-MODE TAKE with every index in range: the range test `lo ≤ idx ∧ idx ≤ hi` (signed, element by element,
    against any two bound vectors), and-reduced to a row mask, broadcast over the result and used to choose between
    the gathered value `a` and the fill `b`, chooses `a` everywhere. -/
theorem select_range_mask {α : Type} {si t u r : Shape} {axes : List (Fin si.rank)} (dims : Fin t.rank → Fin r.rank)
    (hb : t.BroadcastsInDim r dims) (hred : si.ReducesTo axes t) (hu : 0 < u.numel)
    (idx lo hi : IVec si 32)
    (hin : ∀ i, IntOp.cmpi .sge (idx i) (lo i) = 1#1 ∧ IntOp.cmpi .sle (idx i) (hi i) = 1#1)
    (a b : r.Idx → α) :
    select (broadcastInDim r dims hb
        (Host.reduce IntOp.andi (andi (cmpi .sge idx lo) (cmpi .sle idx hi)) (constantI u 1 1#1) hred hu)) a b = a := by
  have hM : ∀ i, (andi (cmpi .sge idx lo) (cmpi .sle idx hi)) i = 1#1 := by
    intro i
    show IntOp.andi (IntOp.cmpi .sge (idx i) (lo i)) (IntOp.cmpi .sle (idx i) (hi i)) = 1#1
    rw [(hin i).1, (hin i).2]; rfl
  rw [reduce_andi_of_all_one _ hM hred hu]
  exact select_bcast_all_one dims hb _ (fun _ => rfl) a b

/-- NumPy's wrap of a possibly negative index into an axis of extent `n`: `w + n` when `w` is negative, else `w`. -/
def wrapIdx (n w : BitVec 32) : BitVec 32 := Scalar.select (IntOp.cmpi .slt w 0#32) (IntOp.addi w n) w

/-- A word in `[-n, n)` (signed), wrapped, lies in `[0, n - 1]`: it passes the signed range test against `0` and `n - 1`. -/
theorem wrapIdx_in_range (n : Nat) (hn0 : 0 < n) (hn : n < 2 ^ 31) (w : BitVec 32)
    (hlo : -(n : Int) ≤ w.toInt) (hhi : w.toInt < (n : Int)) :
    IntOp.cmpi .sge (wrapIdx (BitVec.ofNat 32 n) w) 0#32 = 1#1
      ∧ IntOp.cmpi .sle (wrapIdx (BitVec.ofNat 32 n) w) (BitVec.ofNat 32 (n - 1)) = 1#1 := by
  have hnI : (BitVec.ofNat 32 n).toInt = (n : Int) := StableHlo.Predicate.toInt_ofNat_small n hn
  have hn1I : (BitVec.ofNat 32 (n - 1)).toInt = ((n - 1 : Nat) : Int) := StableHlo.Predicate.toInt_ofNat_small (n - 1) (by omega)
  -- a word whose signed value is in [0, n - 1] passes both compares
  have key : ∀ v : BitVec 32, 0 ≤ v.toInt → v.toInt ≤ (n : Int) - 1 →
      IntOp.cmpi .sge v 0#32 = 1#1 ∧ IntOp.cmpi .sle v (BitVec.ofNat 32 (n - 1)) = 1#1 := by
    intro v h0 h1
    unfold IntOp.cmpi
    simp only [StableHlo.Predicate.ofBool_eq_one_iff, BitVec.sle, decide_eq_true_eq, hn1I, BitVec.toInt_zero]
    constructor
    · exact h0
    · omega
  unfold wrapIdx Scalar.select
  by_cases hneg : w.toInt < 0
  · have hc1 : IntOp.cmpi .slt w 0#32 = 1#1 := by
      unfold IntOp.cmpi
      simp only [StableHlo.Predicate.ofBool_eq_one_iff, BitVec.slt, decide_eq_true_eq, BitVec.toInt_zero]
      exact hneg
    have hc : IntOp.cmpi .slt w 0#32 = (1 : BitVec 1) := hc1
    rw [if_pos hc]
    have hsum : (IntOp.addi w (BitVec.ofNat 32 n)).toInt = w.toInt + (n : Int) := by
      unfold IntOp.addi
      rw [BitVec.toInt_add, hnI]
      unfold Int.bmod
      have h32 : (2 : Int) ^ 32 = 4294967296 := by decide
      have h31 : (2 : Nat) ^ 31 = 2147483648 := by decide
      rw [h31] at hn
      simp only [h32, Nat.cast_ofNat]
      omega
    apply key
    · rw [hsum]; omega
    · rw [hsum]; omega
  · have hc1 : ¬ IntOp.cmpi .slt w 0#32 = 1#1 := by
      unfold IntOp.cmpi
      simp only [StableHlo.Predicate.ofBool_eq_one_iff, BitVec.slt, decide_eq_true_eq, BitVec.toInt_zero]
      exact hneg
    have hc : ¬ IntOp.cmpi .slt w 0#32 = (1 : BitVec 1) := hc1
    rw [if_neg hc]
    apply key
    · omega
    · omega

end Idealize.ShloMosaic.TakeFill

end
-- ==== Proof.Walk1.lean ====
/-
  Between the embedding layer and the first SAGE layer the program gathers the previous layer's rows at the wrapped source indices
  (a row whose index fails the range test would be filled with a constant), scatter-adds them at the destination
  indices into zeros, and reshapes the layer's bias to a row. These lemmas read what the first SAGE layer's
  pallas_call finds, as those operations of what the previous pallas_call left.
-/
import proofs.«401523_j2774548873916_1_alg».proof.Proof.Gen.KernelIdeal.Frame
import Idealize.ShloMosaic.Lib.StableHlo.Run
import Idealize.ShloMosaic.Lib.Affine
import proofs.«401523_j2774548873916_1_alg».proof.Proof.WalkTac
import proofs.«401523_j2774548873916_1_alg».proof.Proof.WalkDefs
import proofs.«401523_j2774548873916_1_alg».proof.Proof.LibTakeFill

set_option maxRecDepth 16384

noncomputable section

namespace Cert.KernelIdeal.Walk1

open Cert.KernelIdeal Cert.KernelIdeal.Gen
open Idealize.ShloMosaic Idealize.ShloMosaic.TcCoe Idealize.SL.Sem Idealize.ShloMosaic.StableHlo

variable {F : FTy → Type} [FloatOps F]
open Cert.KernelIdeal.Host
variable (m : (ℓ : Loc nD τ sig) → Buf (Elt F) ℓ) (ρ : Dev nD → PrngReg)

/-- The node features the layer reads are the previous layer's output: nothing in between writes them. -/
theorem feat (c : Dev nD) : W4 m ρ c (Proc.devRef .tc main_v5) = W2 m ρ c (Proc.devRef .tc main_v5) := by
  walk_back <;> rfl
theorem wl (c : Dev nD) : W4 m ρ c (Proc.devRef .tc main_arg5) = m ((c : Thread nD τ).loc main_arg5) := by
  walk_back <;> rfl
theorem wr (c : Dev nD) : W4 m ρ c (Proc.devRef .tc main_arg7) = m ((c : Thread nD τ).loc main_arg7) := by
  walk_back <;> rfl
/-- The bias row is the bias vector reshaped. -/
theorem b (c : Dev nD) : W4 m ρ c (Proc.devRef .tc main_v10) = shapeCast S1x32 (m ((c : Thread nD τ).loc main_arg6)) shapeCasts_S32_S1x32 := by
  walk_back <;> rfl
/-- The source and destination rows of the edge list are as the first host stretch left them. -/
theorem src (c : Dev nD) : W2 m ρ c (Proc.devRef .tc main_v1) = srcOf (m ((c : Thread nD τ).loc main_arg1)) := by
  walk_back <;> rfl
theorem dst (c : Dev nD) : W3 m ρ c (Proc.devRef .tc main_v3) = dstOf (m ((c : Thread nD τ).loc main_arg1)) := by
  walk_back <;> rfl

set_option maxHeartbeats 4000000 in
/-- THE GATHER. When every wrapped source index passes the range test `0 ≤ · ≤ 49999`, no row is filled: the gathered
    rows are the previous layer's rows at the wrapped source indices. -/
theorem take (c : Dev nD)
    (hin : ∀ i, IntOp.cmpi .sge (wrapCol (srcOf (m ((c : Thread nD τ).loc main_arg1))) i) 0#32 = 1#1
      ∧ IntOp.cmpi .sle (wrapCol (srcOf (m ((c : Thread nD τ).loc main_arg1))) i) 49999#32 = 1#1) :
    W3 m ρ c (Proc.devRef .tc main_v6) = Host.gather gather_S50000x128_S800000x1_S800000x128_1_0_n_n_0_1_1128 (W2 m ρ c (Proc.devRef .tc main_v5)) (wrapCol (srcOf (m ((c : Thread nD τ).loc main_arg1)))) := by
  rw [← src m ρ c] at hin ⊢
  show StableHlo.after hostOps1 (W2 m ρ c) (Proc.devRef .tc main_v6) = _
  generalize W2 m ρ c = V at hin ⊢
  after_results_simp
  simp only [TRef.ofBuf, TRef.toBuf, cast_eq]
  rw [Idealize.ShloMosaic.TakeFill.reduce_andi_of_all_one]
  · rw [Idealize.ShloMosaic.TakeFill.select_bcast_all_one _ _ _ (fun _ => rfl)]
    rfl
  · intro i
    exact IntOp.andi_eq_one.2 ⟨(hin i).1, (hin i).2⟩

set_option maxHeartbeats 1000000 in
/-- THE NEIGHBOUR SUM: the gathered rows scatter-added at the destination indices into zeros. -/
theorem agg (c : Dev nD) : W4 m ρ c (Proc.devRef .tc main_v9)
    = Host.scatterAdd scatter_S50000x128_S800000x1_S800000x128_1_0_0_1 (broadcastInDim S50000x128 ![] bcast_S_S50000x128 (constant S_ .f32 0x00000000#32))
        (broadcastInDim S800000x1 ![0] bcast_S800000_S800000x1_0 (W3 m ρ c (Proc.devRef .tc main_v3)))
        (W3 m ρ c (Proc.devRef .tc main_v6)) := by
  show StableHlo.after hostOps1_1 (W3 m ρ c) (Proc.devRef .tc main_v9) = _
  generalize W3 m ρ c = V
  after_results <;> rfl

end Cert.KernelIdeal.Walk1

end
-- ==== Proof.Walk2.lean ====
/-
  Between the first SAGE layer and the second SAGE layer the program gathers the previous layer's rows at the wrapped source indices
  (a row whose index fails the range test would be filled with a constant), scatter-adds them at the destination
  indices into zeros, and reshapes the layer's bias to a row. These lemmas read what the second SAGE layer's
  pallas_call finds, as those operations of what the previous pallas_call left.
-/
import proofs.«401523_j2774548873916_1_alg».proof.Proof.Gen.KernelIdeal.Frame
import Idealize.ShloMosaic.Lib.StableHlo.Run
import Idealize.ShloMosaic.Lib.Affine
import proofs.«401523_j2774548873916_1_alg».proof.Proof.WalkTac
import proofs.«401523_j2774548873916_1_alg».proof.Proof.WalkDefs
import proofs.«401523_j2774548873916_1_alg».proof.Proof.Walk1
import proofs.«401523_j2774548873916_1_alg».proof.Proof.LibTakeFill

set_option maxRecDepth 16384

noncomputable section

namespace Cert.KernelIdeal.Walk2

open Cert.KernelIdeal Cert.KernelIdeal.Gen
open Idealize.ShloMosaic Idealize.ShloMosaic.TcCoe Idealize.SL.Sem Idealize.ShloMosaic.StableHlo

variable {F : FTy → Type} [FloatOps F]
open Cert.KernelIdeal.Host
variable (m : (ℓ : Loc nD τ sig) → Buf (Elt F) ℓ) (ρ : Dev nD → PrngReg)

/-- The node features the layer reads are the previous layer's output: nothing in between writes them. -/
theorem feat (c : Dev nD) : W7 m ρ c (Proc.devRef .tc main_v11) = W5 m ρ c (Proc.devRef .tc main_v11) := by
  walk_back <;> rfl
theorem wl (c : Dev nD) : W7 m ρ c (Proc.devRef .tc main_arg8) = m ((c : Thread nD τ).loc main_arg8) := by
  walk_back <;> rfl
theorem wr (c : Dev nD) : W7 m ρ c (Proc.devRef .tc main_arg10) = m ((c : Thread nD τ).loc main_arg10) := by
  walk_back <;> rfl
/-- The bias row is the bias vector reshaped. -/
theorem b (c : Dev nD) : W7 m ρ c (Proc.devRef .tc main_v16) = shapeCast S1x64 (m ((c : Thread nD τ).loc main_arg9)) shapeCasts_S64_S1x64 := by
  walk_back <;> rfl
/-- The source and destination rows of the edge list are as the first host stretch left them. -/
theorem src (c : Dev nD) : W5 m ρ c (Proc.devRef .tc main_v1) = srcOf (m ((c : Thread nD τ).loc main_arg1)) := by
  walk_back <;> rfl
theorem dst (c : Dev nD) : W6 m ρ c (Proc.devRef .tc main_v3) = dstOf (m ((c : Thread nD τ).loc main_arg1)) := by
  walk_back <;> rfl

set_option maxHeartbeats 4000000 in
/-- THE GATHER. When every wrapped source index passes the range test `0 ≤ · ≤ 49999`, no row is filled: the gathered
    rows are the previous layer's rows at the wrapped source indices. -/
theorem take (c : Dev nD)
    (hin : ∀ i, IntOp.cmpi .sge (wrapCol (srcOf (m ((c : Thread nD τ).loc main_arg1))) i) 0#32 = 1#1
      ∧ IntOp.cmpi .sle (wrapCol (srcOf (m ((c : Thread nD τ).loc main_arg1))) i) 49999#32 = 1#1) :
    W6 m ρ c (Proc.devRef .tc main_v12) = Host.gather gather_S50000x32_S800000x1_S800000x32_1_0_n_n_0_1_132 (W5 m ρ c (Proc.devRef .tc main_v11)) (wrapCol (srcOf (m ((c : Thread nD τ).loc main_arg1)))) := by
  rw [← src m ρ c] at hin ⊢
  show StableHlo.after hostOps2 (W5 m ρ c) (Proc.devRef .tc main_v12) = _
  generalize W5 m ρ c = V at hin ⊢
  after_results_simp
  simp only [TRef.ofBuf, TRef.toBuf, cast_eq]
  rw [Idealize.ShloMosaic.TakeFill.reduce_andi_of_all_one]
  · rw [Idealize.ShloMosaic.TakeFill.select_bcast_all_one _ _ _ (fun _ => rfl)]
    rfl
  · intro i
    exact IntOp.andi_eq_one.2 ⟨(hin i).1, (hin i).2⟩

set_option maxHeartbeats 1000000 in
/-- THE NEIGHBOUR SUM: the gathered rows scatter-added at the destination indices into zeros. -/
theorem agg (c : Dev nD) : W7 m ρ c (Proc.devRef .tc main_v15)
    = Host.scatterAdd scatter_S50000x32_S800000x1_S800000x32_1_0_0_1 (broadcastInDim S50000x32 ![] bcast_S_S50000x32 (constant S_ .f32 0x00000000#32))
        (broadcastInDim S800000x1 ![0] bcast_S800000_S800000x1_0 (W6 m ρ c (Proc.devRef .tc main_v3)))
        (W6 m ρ c (Proc.devRef .tc main_v12)) := by
  show StableHlo.after hostOps2_1 (W6 m ρ c) (Proc.devRef .tc main_v15) = _
  generalize W6 m ρ c = V
  after_results <;> rfl

end Cert.KernelIdeal.Walk2

end
-- ==== Proof.Walk3.lean ====
/-
  Between the second SAGE layer and the third SAGE layer the program gathers the previous layer's rows at the wrapped source indices
  (a row whose index fails the range test would be filled with a constant), scatter-adds them at the destination
  indices into zeros, and reshapes the layer's bias to a row. These lemmas read what the third SAGE layer's
  pallas_call finds, as those operations of what the previous pallas_call left.
-/
import proofs.«401523_j2774548873916_1_alg».proof.Proof.Gen.KernelIdeal.Frame
import Idealize.ShloMosaic.Lib.StableHlo.Run
import Idealize.ShloMosaic.Lib.Affine
import proofs.«401523_j2774548873916_1_alg».proof.Proof.WalkTac
import proofs.«401523_j2774548873916_1_alg».proof.Proof.WalkDefs
import proofs.«401523_j2774548873916_1_alg».proof.Proof.Walk2
import proofs.«401523_j2774548873916_1_alg».proof.Proof.LibTakeFill

set_option maxRecDepth 16384

noncomputable section

namespace Cert.KernelIdeal.Walk3

open Cert.KernelIdeal Cert.KernelIdeal.Gen
open Idealize.ShloMosaic Idealize.ShloMosaic.TcCoe Idealize.SL.Sem Idealize.ShloMosaic.StableHlo

variable {F : FTy → Type} [FloatOps F]
open Cert.KernelIdeal.Host
variable (m : (ℓ : Loc nD τ sig) → Buf (Elt F) ℓ) (ρ : Dev nD → PrngReg)

/-- The node features the layer reads are the previous layer's output: nothing in between writes them. -/
theorem feat (c : Dev nD) : W10 m ρ c (Proc.devRef .tc main_v17) = W8 m ρ c (Proc.devRef .tc main_v17) := by
  walk_back <;> rfl
theorem wl (c : Dev nD) : W10 m ρ c (Proc.devRef .tc main_arg11) = m ((c : Thread nD τ).loc main_arg11) := by
  walk_back <;> rfl
theorem wr (c : Dev nD) : W10 m ρ c (Proc.devRef .tc main_arg13) = m ((c : Thread nD τ).loc main_arg13) := by
  walk_back <;> rfl
/-- The bias row is the bias vector reshaped. -/
theorem b (c : Dev nD) : W10 m ρ c (Proc.devRef .tc main_v22) = shapeCast S1x128 (m ((c : Thread nD τ).loc main_arg12)) shapeCasts_S128_S1x128 := by
  walk_back <;> rfl
/-- The source and destination rows of the edge list are as the first host stretch left them. -/
theorem src (c : Dev nD) : W8 m ρ c (Proc.devRef .tc main_v1) = srcOf (m ((c : Thread nD τ).loc main_arg1)) := by
  walk_back <;> rfl
theorem dst (c : Dev nD) : W9 m ρ c (Proc.devRef .tc main_v3) = dstOf (m ((c : Thread nD τ).loc main_arg1)) := by
  walk_back <;> rfl

set_option maxHeartbeats 4000000 in
/-- THE GATHER. When every wrapped source index passes the range test `0 ≤ · ≤ 49999`, no row is filled: the gathered
    rows are the previous layer's rows at the wrapped source indices. -/
theorem take (c : Dev nD)
    (hin : ∀ i, IntOp.cmpi .sge (wrapCol (srcOf (m ((c : Thread nD τ).loc main_arg1))) i) 0#32 = 1#1
      ∧ IntOp.cmpi .sle (wrapCol (srcOf (m ((c : Thread nD τ).loc main_arg1))) i) 49999#32 = 1#1) :
    W9 m ρ c (Proc.devRef .tc main_v18) = Host.gather gather_S50000x64_S800000x1_S800000x64_1_0_n_n_0_1_164 (W8 m ρ c (Proc.devRef .tc main_v17)) (wrapCol (srcOf (m ((c : Thread nD τ).loc main_arg1)))) := by
  rw [← src m ρ c] at hin ⊢
  show StableHlo.after hostOps3 (W8 m ρ c) (Proc.devRef .tc main_v18) = _
  generalize W8 m ρ c = V at hin ⊢
  after_results_simp
  simp only [TRef.ofBuf, TRef.toBuf, cast_eq]
  rw [Idealize.ShloMosaic.TakeFill.reduce_andi_of_all_one]
  · rw [Idealize.ShloMosaic.TakeFill.select_bcast_all_one _ _ _ (fun _ => rfl)]
    rfl
  · intro i
    exact IntOp.andi_eq_one.2 ⟨(hin i).1, (hin i).2⟩

set_option maxHeartbeats 1000000 in
/-- THE NEIGHBOUR SUM: the gathered rows scatter-added at the destination indices into zeros. -/
theorem agg (c : Dev nD) : W10 m ρ c (Proc.devRef .tc main_v21)
    = Host.scatterAdd scatter_S50000x64_S800000x1_S800000x64_1_0_0_1 (broadcastInDim S50000x64 ![] bcast_S_S50000x64 (constant S_ .f32 0x00000000#32))
        (broadcastInDim S800000x1 ![0] bcast_S800000_S800000x1_0 (W9 m ρ c (Proc.devRef .tc main_v3)))
        (W9 m ρ c (Proc.devRef .tc main_v18)) := by
  show StableHlo.after hostOps3_1 (W9 m ρ c) (Proc.devRef .tc main_v21) = _
  generalize W9 m ρ c = V
  after_results <;> rfl

end Cert.KernelIdeal.Walk3

end
-- ==== Proof.Walk4.lean ====
/-
  Between the third SAGE layer and the final projection the program pools the node rows per graph (a mean: sum per
  graph id divided by the clamped count) and reshapes the projection's bias to a row. These lemmas read what the
  projection's pallas_call finds, as those operations of what the third SAGE layer's pallas_call left.
-/
import proofs.«401523_j2774548873916_1_alg».proof.Proof.Gen.KernelIdeal.Frame
import Idealize.ShloMosaic.Lib.StableHlo.Run
import proofs.«401523_j2774548873916_1_alg».proof.Proof.WalkTac
import proofs.«401523_j2774548873916_1_alg».proof.Proof.WalkDefs
import proofs.«401523_j2774548873916_1_alg».proof.Proof.Walk3

set_option maxRecDepth 16384

noncomputable section

namespace Cert.KernelIdeal.Walk4

open Cert.KernelIdeal Cert.KernelIdeal.Gen
open Idealize.ShloMosaic Idealize.ShloMosaic.TcCoe Idealize.SL.Sem Idealize.ShloMosaic.StableHlo

variable {F : FTy → Type} [FloatOps F]
open Cert.KernelIdeal.Host
variable (m : (ℓ : Loc nD τ sig) → Buf (Elt F) ℓ) (ρ : Dev nD → PrngReg)

set_option maxHeartbeats 4000000 in
/-- The pooled matrix is the mean pooling of the third layer's output by the graph ids. -/
theorem pooled (c : Dev nD) : W12 m ρ c (Proc.devRef .tc main_v34)
    = poolOf (W11 m ρ c (Proc.devRef .tc main_v23)) (m ((c : Thread nD τ).loc main_arg2)) := by
  have hb : W11 m ρ c (Proc.devRef .tc main_arg2) = m ((c : Thread nD τ).loc main_arg2) := by walk_back <;> rfl
  rw [← hb]
  show StableHlo.after hostOps4 (W11 m ρ c) (Proc.devRef .tc main_v34) = _
  generalize W11 m ρ c = V
  after_results <;> rfl
theorem w (c : Dev nD) : W12 m ρ c (Proc.devRef .tc main_arg14) = m ((c : Thread nD τ).loc main_arg14) := by
  walk_back <;> rfl
/-- The bias row is the bias vector reshaped. -/
theorem b (c : Dev nD) : W12 m ρ c (Proc.devRef .tc main_v35) = shapeCast S1x256 (m ((c : Thread nD τ).loc main_arg15)) shapeCasts_S256_S1x256 := by
  walk_back <;> rfl

end Cert.KernelIdeal.Walk4

end
-- ==== Proof.RDots.lean ====
/-
  The five `dot_general`s of the idealized reference (each SAGE layer's two products share one set of dimension
  numbers) contract axis 1 of the left operand with axis 0 of the right: the plain rows-by-columns product over all
  50000 node rows (1000 graph rows for the last), so each reads at (p, q) as row p against column q.
-/
import proofs.«401523_j2774548873916_1_alg».proof.Proof.Gen.ReferenceIdeal
import proofs.«401523_j2774548873916_1_alg».proof.Proof.LibSageSpec

noncomputable section

namespace Cert.ReferenceIdeal.Dots

open Cert.ReferenceIdeal Idealize.ShloMosaic Idealize.ShloMosaic.SageSpec

/-- The embedding layer: [50000 × 128] · [128 × 128]. -/
theorem plain0 : PlainDot (n := 50000) (k := 128) (m := 128) dot_S50000x128_S128x128_S50000x128_1_0_0_1_n_n where
  rank := rfl
  size := fun _ => rfl
  l0 := fun i q => by
    unfold DotDims.lhsIdx
    rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
    rfl
  l1 := fun i q _ => dot_S50000x128_S128x128_S50000x128_1_0_0_1_n_n.lhsIdx_val_of_single rfl i q
  r0 := fun i q _ => dot_S50000x128_S128x128_S50000x128_1_0_0_1_n_n.rhsIdx_val_of_single rfl i q
  r1 := fun i q => by
    unfold DotDims.rhsIdx
    rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
    rfl

/-- The first SAGE layer: [50000 × 128] · [128 × 32]. -/
theorem plain1 : PlainDot (n := 50000) (k := 128) (m := 32) dot_S50000x128_S128x32_S50000x32_1_0_0_1_n_n where
  rank := rfl
  size := fun _ => rfl
  l0 := fun i q => by
    unfold DotDims.lhsIdx
    rw [dif_neg (show ¬(0 : Fin S50000x128.rank) ∈ dot_S50000x128_S128x32_S50000x32_1_0_0_1_n_n.lhsBatch by decide), dif_pos (show (0 : Fin S50000x128.rank) ∈ dot_S50000x128_S128x32_S50000x32_1_0_0_1_n_n.lhsNonContracting by decide)]
    rfl
  l1 := fun i q _ => dot_S50000x128_S128x32_S50000x32_1_0_0_1_n_n.lhsIdx_val_of_single rfl i q
  r0 := fun i q _ => dot_S50000x128_S128x32_S50000x32_1_0_0_1_n_n.rhsIdx_val_of_single rfl i q
  r1 := fun i q => by
    unfold DotDims.rhsIdx
    rw [dif_neg (show ¬(1 : Fin S128x32.rank) ∈ dot_S50000x128_S128x32_S50000x32_1_0_0_1_n_n.rhsBatch by decide), dif_pos (show (1 : Fin S128x32.rank) ∈ dot_S50000x128_S128x32_S50000x32_1_0_0_1_n_n.rhsNonContracting by decide)]
    rfl

/-- The second SAGE layer: [50000 × 32] · [32 × 64]. -/
theorem plain2 : PlainDot (n := 50000) (k := 32) (m := 64) dot_S50000x32_S32x64_S50000x64_1_0_0_1_n_n where
  rank := rfl
  size := fun _ => rfl
  l0 := fun i q => by
    unfold DotDims.lhsIdx
    rw [dif_neg (show ¬(0 : Fin S50000x32.rank) ∈ dot_S50000x32_S32x64_S50000x64_1_0_0_1_n_n.lhsBatch by decide), dif_pos (show (0 : Fin S50000x32.rank) ∈ dot_S50000x32_S32x64_S50000x64_1_0_0_1_n_n.lhsNonContracting by decide)]
    rfl
  l1 := fun i q _ => dot_S50000x32_S32x64_S50000x64_1_0_0_1_n_n.lhsIdx_val_of_single rfl i q
  r0 := fun i q _ => dot_S50000x32_S32x64_S50000x64_1_0_0_1_n_n.rhsIdx_val_of_single rfl i q
  r1 := fun i q => by
    unfold DotDims.rhsIdx
    rw [dif_neg (show ¬(1 : Fin S32x64.rank) ∈ dot_S50000x32_S32x64_S50000x64_1_0_0_1_n_n.rhsBatch by decide), dif_pos (show (1 : Fin S32x64.rank) ∈ dot_S50000x32_S32x64_S50000x64_1_0_0_1_n_n.rhsNonContracting by decide)]
    rfl

/-- The third SAGE layer: [50000 × 64] · [64 × 128]. -/
theorem plain3 : PlainDot (n := 50000) (k := 64) (m := 128) dot_S50000x64_S64x128_S50000x128_1_0_0_1_n_n where
  rank := rfl
  size := fun _ => rfl
  l0 := fun i q => by
    unfold DotDims.lhsIdx
    rw [dif_neg (show ¬(0 : Fin S50000x64.rank) ∈ dot_S50000x64_S64x128_S50000x128_1_0_0_1_n_n.lhsBatch by decide), dif_pos (show (0 : Fin S50000x64.rank) ∈ dot_S50000x64_S64x128_S50000x128_1_0_0_1_n_n.lhsNonContracting by decide)]
    rfl
  l1 := fun i q _ => dot_S50000x64_S64x128_S50000x128_1_0_0_1_n_n.lhsIdx_val_of_single rfl i q
  r0 := fun i q _ => dot_S50000x64_S64x128_S50000x128_1_0_0_1_n_n.rhsIdx_val_of_single rfl i q
  r1 := fun i q => by
    unfold DotDims.rhsIdx
    rw [dif_neg (show ¬(1 : Fin S64x128.rank) ∈ dot_S50000x64_S64x128_S50000x128_1_0_0_1_n_n.rhsBatch by decide), dif_pos (show (1 : Fin S64x128.rank) ∈ dot_S50000x64_S64x128_S50000x128_1_0_0_1_n_n.rhsNonContracting by decide)]
    rfl

/-- The final projection: [1000 × 128] · [128 × 256]. -/
theorem plain4 : PlainDot (n := 1000) (k := 128) (m := 256) dot_S1000x128_S128x256_S1000x256_1_0_0_1_n_n where
  rank := rfl
  size := fun _ => rfl
  l0 := fun i q => by
    unfold DotDims.lhsIdx
    rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
    rfl
  l1 := fun i q _ => dot_S1000x128_S128x256_S1000x256_1_0_0_1_n_n.lhsIdx_val_of_single rfl i q
  r0 := fun i q _ => dot_S1000x128_S128x256_S1000x256_1_0_0_1_n_n.rhsIdx_val_of_single rfl i q
  r1 := fun i q => by
    unfold DotDims.rhsIdx
    rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
    rfl

end Cert.ReferenceIdeal.Dots

end
-- ==== Proof.RefStages.lean ====
/-
  The reference's five dense stages, each as the whole-array function of the stage before it: the embedding
  `x · W + b`; three SAGE layers `act ((agg · Wl + b) + h · Wr)`, which is `act (agg · Wl + h · Wr + b)` because addition of
  extended reals is commutative and associative; and the final projection of the pooled matrix. The neighbour sums
  (gather and scatter-add) and the mean pooling between them are carried as the stage functions they are: nothing
  here looks inside them.
-/
import proofs.«401523_j2774548873916_1_alg».proof.Proof.RefRead
import proofs.«401523_j2774548873916_1_alg».proof.Proof.LibSageSpec
import proofs.«401523_j2774548873916_1_alg».proof.Proof.RDots

set_option maxRecDepth 16384

noncomputable section

namespace Cert.ReferenceIdeal.Stages

open Cert.ReferenceIdeal Cert.ReferenceIdeal.Gen Cert.ReferenceIdeal.ReadP
open Idealize.ShloMosaic Idealize.ShloMosaic.TcCoe
open Idealize.ShloMosaic.SageSpec Idealize.ShloMosaic.ValueIdx

variable (x0 : S50000x128.Idx → EReal) (x1 : IVec S2x800000 32) (x2 : IVec S50000 32) (x3 : S128x128.Idx → EReal) (x4 : S128.Idx → EReal)
  (x5 : S128x32.Idx → EReal) (x6 : S32.Idx → EReal) (x7 : S128x32.Idx → EReal) (x8 : S32x64.Idx → EReal) (x9 : S64.Idx → EReal)
  (x10 : S32x64.Idx → EReal) (x11 : S64x128.Idx → EReal) (x12 : S128.Idx → EReal) (x13 : S64x128.Idx → EReal)
  (x14 : S128x256.Idx → EReal) (x15 : S256.Idx → EReal)

/-- A contracted sum whose two reads are row `p` at the contracted coordinate and the contracted coordinate at column
    `q` is row `p` against column `q`. -/
theorem sum_eq_rowDot {n k m : Nat} (a : Mat n k) (w : Mat k m) (p : Fin n) (q : Fin m)
    (li : Fin k → (⟨2, ![n, k]⟩ : Shape).Idx) (ri : Fin k → (⟨2, ![k, m]⟩ : Shape).Idx)
    (hl : ∀ κ, li κ = ix2 p κ) (hr : ∀ κ, ri κ = ix2 κ q) :
    ∑ κ : Fin k, a (li κ) * w (ri κ) = rowDot a w p q := by
  unfold rowDot
  exact Finset.sum_congr rfl fun κ _ => by rw [hl, hr]

/-- The embedding stage. -/
theorem h_eq : (val_main_v7 (F := Ideal) x0 x3 x4 : S50000x128.Idx → EReal)
    = linF (x0 : Mat 50000 128) (x3 : Mat 128 128) (fun q => x4 (ix1 q)) := by
  funext i
  obtain ⟨p, q, rfl⟩ : ∃ (p : Fin 50000) (q : Fin 128), i = ix2 p q := ⟨i 0, i 1, eq_ix2 i⟩
  rw [val_main_v7_apply, val_main_v4_apply, val_main_v6_apply, val_main_v5_apply]
  exact congrArg₂ (· + ·)
    (sum_eq_rowDot (x0 : Mat 50000 128) (x3 : Mat 128 128) p q _ _
      (fun κ => funext fun a => match a with | ⟨0, _⟩ => rfl | ⟨1, _⟩ => rfl)
      (fun κ => funext fun a => match a with | ⟨0, _⟩ => rfl | ⟨1, _⟩ => rfl))
    (congrArg x4 (funext fun a => match a with | ⟨0, _⟩ => rfl))

/-- The first SAGE stage, of the first neighbour sum and the embedding. -/
theorem h1_eq : (val_main_v28 (F := Ideal) x0 x1 x3 x4 x5 x6 x7 : S50000x32.Idx → EReal)
    = sageF leakyAt (val_main_v17 (F := Ideal) x0 x1 x3 x4 : Mat 50000 128) (val_main_v7 (F := Ideal) x0 x3 x4 : Mat 50000 128)
        (x5 : Mat 128 32) (x7 : Mat 128 32) (fun q => x6 (ix1 q)) := by
  funext i
  obtain ⟨p, q, rfl⟩ : ∃ (p : Fin 50000) (q : Fin 32), i = ix2 p q := ⟨i 0, i 1, eq_ix2 i⟩
  rw [val_main_v28_apply, val_main_v25_apply, val_main_v27_apply, val_main_v24_apply, val_main_v26_apply,
    val_main_cst_1_apply, val_main_cst_2_apply]
  generalize hs : val_main_v23 (F := Ideal) x0 x1 x3 x4 x5 x6 x7 (ix2 p q) = s
  refine (show _ = leakyAt s from rfl).trans (congrArg leakyAt ?_)
  rw [← hs, val_main_v23_apply, val_main_v21_apply, val_main_v18_apply, val_main_v22_apply, val_main_v20_apply,
    val_main_v19_apply]
  generalize val_main_v17 (F := Ideal) x0 x1 x3 x4 = A
  generalize val_main_v7 (F := Ideal) x0 x3 x4 = H
  refine Eq.trans ?_ (add_bias_comm (rowDot (A : Mat 50000 128) (x5 : Mat 128 32) p q)
    (rowDot (H : Mat 50000 128) (x7 : Mat 128 32) p q) (x6 (ix1 q)))
  exact congrArg₂ (· + ·) (congrArg₂ (· + ·)
    (sum_eq_rowDot (A : Mat 50000 128) (x5 : Mat 128 32) p q _ _
      (fun κ => funext fun a => match a with | ⟨0, _⟩ => rfl | ⟨1, _⟩ => rfl)
      (fun κ => funext fun a => match a with | ⟨0, _⟩ => rfl | ⟨1, _⟩ => rfl))
    (congrArg x6 (funext fun a => match a with | ⟨0, _⟩ => rfl)))
    (sum_eq_rowDot (H : Mat 50000 128) (x7 : Mat 128 32) p q _ _
      (fun κ => funext fun a => match a with | ⟨0, _⟩ => rfl | ⟨1, _⟩ => rfl)
      (fun κ => funext fun a => match a with | ⟨0, _⟩ => rfl | ⟨1, _⟩ => rfl))

/-- The second SAGE stage. -/
theorem h2_eq : (val_main_v49 (F := Ideal) x0 x1 x3 x4 x5 x6 x7 x8 x9 x10 : S50000x64.Idx → EReal)
    = sageF leakyAt (val_main_v38 (F := Ideal) x0 x1 x3 x4 x5 x6 x7 : Mat 50000 32) (val_main_v28 (F := Ideal) x0 x1 x3 x4 x5 x6 x7 : Mat 50000 32)
        (x8 : Mat 32 64) (x10 : Mat 32 64) (fun q => x9 (ix1 q)) := by
  funext i
  obtain ⟨p, q, rfl⟩ : ∃ (p : Fin 50000) (q : Fin 64), i = ix2 p q := ⟨i 0, i 1, eq_ix2 i⟩
  rw [val_main_v49_apply, val_main_v46_apply, val_main_v48_apply, val_main_v45_apply, val_main_v47_apply,
    val_main_cst_6_apply, val_main_cst_7_apply]
  generalize hs : val_main_v44 (F := Ideal) x0 x1 x3 x4 x5 x6 x7 x8 x9 x10 (ix2 p q) = s
  refine (show _ = leakyAt s from rfl).trans (congrArg leakyAt ?_)
  rw [← hs, val_main_v44_apply, val_main_v42_apply, val_main_v39_apply, val_main_v43_apply, val_main_v41_apply,
    val_main_v40_apply]
  generalize val_main_v38 (F := Ideal) x0 x1 x3 x4 x5 x6 x7 = A
  generalize val_main_v28 (F := Ideal) x0 x1 x3 x4 x5 x6 x7 = H
  refine Eq.trans ?_ (add_bias_comm (rowDot (A : Mat 50000 32) (x8 : Mat 32 64) p q)
    (rowDot (H : Mat 50000 32) (x10 : Mat 32 64) p q) (x9 (ix1 q)))
  exact congrArg₂ (· + ·) (congrArg₂ (· + ·)
    (sum_eq_rowDot (A : Mat 50000 32) (x8 : Mat 32 64) p q _ _
      (fun κ => funext fun a => match a with | ⟨0, _⟩ => rfl | ⟨1, _⟩ => rfl)
      (fun κ => funext fun a => match a with | ⟨0, _⟩ => rfl | ⟨1, _⟩ => rfl))
    (congrArg x9 (funext fun a => match a with | ⟨0, _⟩ => rfl)))
    (sum_eq_rowDot (H : Mat 50000 32) (x10 : Mat 32 64) p q _ _
      (fun κ => funext fun a => match a with | ⟨0, _⟩ => rfl | ⟨1, _⟩ => rfl)
      (fun κ => funext fun a => match a with | ⟨0, _⟩ => rfl | ⟨1, _⟩ => rfl))

/-- The third SAGE stage (no activation). -/
theorem h3_eq : (val_main_v65 (F := Ideal) x0 x1 x3 x4 x5 x6 x7 x8 x9 x10 x11 x12 x13 : S50000x128.Idx → EReal)
    = sageF (fun s => s) (val_main_v59 (F := Ideal) x0 x1 x3 x4 x5 x6 x7 x8 x9 x10 : Mat 50000 64)
        (val_main_v49 (F := Ideal) x0 x1 x3 x4 x5 x6 x7 x8 x9 x10 : Mat 50000 64) (x11 : Mat 64 128) (x13 : Mat 64 128) (fun q => x12 (ix1 q)) := by
  funext i
  obtain ⟨p, q, rfl⟩ : ∃ (p : Fin 50000) (q : Fin 128), i = ix2 p q := ⟨i 0, i 1, eq_ix2 i⟩
  rw [val_main_v65_apply, val_main_v63_apply, val_main_v60_apply, val_main_v64_apply, val_main_v62_apply,
    val_main_v61_apply]
  generalize val_main_v59 (F := Ideal) x0 x1 x3 x4 x5 x6 x7 x8 x9 x10 = A
  generalize val_main_v49 (F := Ideal) x0 x1 x3 x4 x5 x6 x7 x8 x9 x10 = H
  refine Eq.trans ?_ (add_bias_comm (rowDot (A : Mat 50000 64) (x11 : Mat 64 128) p q)
    (rowDot (H : Mat 50000 64) (x13 : Mat 64 128) p q) (x12 (ix1 q)))
  exact congrArg₂ (· + ·) (congrArg₂ (· + ·)
    (sum_eq_rowDot (A : Mat 50000 64) (x11 : Mat 64 128) p q _ _
      (fun κ => funext fun a => match a with | ⟨0, _⟩ => rfl | ⟨1, _⟩ => rfl)
      (fun κ => funext fun a => match a with | ⟨0, _⟩ => rfl | ⟨1, _⟩ => rfl))
    (congrArg x12 (funext fun a => match a with | ⟨0, _⟩ => rfl)))
    (sum_eq_rowDot (H : Mat 50000 64) (x13 : Mat 64 128) p q _ _
      (fun κ => funext fun a => match a with | ⟨0, _⟩ => rfl | ⟨1, _⟩ => rfl)
      (fun κ => funext fun a => match a with | ⟨0, _⟩ => rfl | ⟨1, _⟩ => rfl))

/-- The final projection, of the pooled matrix. -/
theorem out_eq : (val_main_v80 (F := Ideal) x0 x1 x2 x3 x4 x5 x6 x7 x8 x9 x10 x11 x12 x13 x14 x15 : S1000x256.Idx → EReal)
    = linF (val_main_v76 (F := Ideal) x0 x1 x2 x3 x4 x5 x6 x7 x8 x9 x10 x11 x12 x13 : Mat 1000 128) (x14 : Mat 128 256) (fun q => x15 (ix1 q)) := by
  funext i
  obtain ⟨p, q, rfl⟩ : ∃ (p : Fin 1000) (q : Fin 256), i = ix2 p q := ⟨i 0, i 1, eq_ix2 i⟩
  rw [val_main_v80_apply, val_main_v77_apply, val_main_v79_apply, val_main_v78_apply]
  generalize val_main_v76 (F := Ideal) x0 x1 x2 x3 x4 x5 x6 x7 x8 x9 x10 x11 x12 x13 = P
  exact congrArg₂ (· + ·)
    (sum_eq_rowDot (P : Mat 1000 128) (x14 : Mat 128 256) p q _ _
      (fun κ => funext fun a => match a with | ⟨0, _⟩ => rfl | ⟨1, _⟩ => rfl)
      (fun κ => funext fun a => match a with | ⟨0, _⟩ => rfl | ⟨1, _⟩ => rfl))
    (congrArg x15 (funext fun a => match a with | ⟨0, _⟩ => rfl))

end Cert.ReferenceIdeal.Stages

end
-- ==== Proof.SrcRange.lean ====
/-
  The precondition, decoded at one edge. Its last conjunct says that every source-node index `edge_index[0, e]` is a
  valid NumPy index into an axis of 50000 rows: `-50000 ≤ src[e] < 50000` as signed 32-bit words. The conjunct is the
  and-reduction over all 800000 edges of the two signed compares, so the and of all conjuncts being 1 gives both
  compares at every edge. The source row is written the way both programs read it: row 0 of the [2 × 800000] array,
  sliced and reshaped to a vector, whatever the evidence for the slice and the reshape.
-/
import proofs.«401523_j2774548873916_1_alg».proof.Pre_finite_inputs
import proofs.«401523_j2774548873916_1_alg».proof.Proof.Gen.Pre_finite_inputs
import Idealize.ShloMosaic.Lib.ReduceAll
import Idealize.ShloMosaic.Lib.Affine
import Idealize.ShloMosaic.Lib.ValueIdx
import Idealize.ShloMosaic.PureOps.Ideal

set_option maxRecDepth 16384

noncomputable section

namespace Cert.Pre_finite_inputs.SrcRange

open Cert.Pre_finite_inputs Idealize.ShloMosaic

/-- A rank-0 shape has one index. -/
instance subsingleton_scalar_idx : Subsingleton S_.Idx := ⟨fun a b => funext fun d => d.elim0⟩

/-- The lower bound's word is -50000 read signed. -/
theorem lo_word : (4294917296#32 : BitVec 32).toInt = -50000 := by decide

/-- The upper bound's word is 50000 read signed. -/
theorem hi_word : (50000#32 : BitVec 32).toInt = 50000 := by decide

/-- The last part of the predicate, whatever the and of the earlier conjuncts is: if it is 1 at the one index of
    the result, then its second operand, the and-reduction of the two compares over all edges, is 1; so both compares
    are 1 at every edge, and the compared bounds are the two constant words at every edge. -/
theorem part4_edge (a1 : IVec S2x800000 32) (v63 v67 : IVec S_ 1) (i : S_.Idx)
    (h : fn_part4 (F := Ideal) a1 v63 v67 i = 1#1) (e : S800000.Idx) :
    -(50000 : Int) ≤ (shapeCast S800000 (extractStridedSlice S1x800000 ![0, 0] a1 Facts.slices_S2x800000_S1x800000_0_0)
          Facts.shapeCasts_S1x800000_S800000 e).toInt
      ∧ (shapeCast S800000 (extractStridedSlice S1x800000 ![0, 0] a1 Facts.slices_S2x800000_S1x800000_0_0)
          Facts.shapeCasts_S1x800000_S800000 e).toInt < 50000 := by
  unfold fn_part4 at h
  have h2 := (IntOp.andi_eq_one.1 h).2
  have h3 := Host.reduce_andi_all _ _ _ _ i h2 e
  obtain ⟨hge, hlt⟩ := IntOp.andi_eq_one.1 h3
  have hge' := IntOp.cmpi_sge.1 hge
  have hlt' := IntOp.cmpi_slt.1 hlt
  rw [← lo_word, ← hi_word]
  exact ⟨hge', hlt'⟩

/-- Every source index is in `[-50000, 50000)`, read signed. -/
theorem src_in_range (a0 : FVec Ideal S50000x128 .f32) (a1 : IVec S2x800000 32) (a2 : IVec S50000 32) (a3 : FVec Ideal S128x128 .f32)
    (a4 : FVec Ideal S128 .f32) (a5 : FVec Ideal S128x32 .f32) (a6 : FVec Ideal S32 .f32) (a7 : FVec Ideal S128x32 .f32)
    (a8 : FVec Ideal S32x64 .f32) (a9 : FVec Ideal S64 .f32) (a10 : FVec Ideal S32x64 .f32) (a11 : FVec Ideal S64x128 .f32)
    (a12 : FVec Ideal S128 .f32) (a13 : FVec Ideal S64x128 .f32) (a14 : FVec Ideal S128x256 .f32) (a15 : FVec Ideal S256 .f32)
    (h : Cert.Pre_finite_inputs.fn (F := Ideal) a0 a1 a2 a3 a4 a5 a6 a7 a8 a9 a10 a11 a12 a13 a14 a15 = fun _ => 1#1)
    (hs : (⟨2, ![2, 800000]⟩ : Shape).Slices ![0, 0] ⟨2, ![1, 800000]⟩) (hc : (⟨2, ![1, 800000]⟩ : Shape).ShapeCasts ⟨1, ![800000]⟩)
    (e : (⟨1, ![800000]⟩ : Shape).Idx) :
    -(50000 : Int) ≤ (shapeCast ⟨1, ![800000]⟩ (extractStridedSlice ⟨2, ![1, 800000]⟩ ![0, 0] a1 hs) hc e).toInt
      ∧ (shapeCast ⟨1, ![800000]⟩ (extractStridedSlice ⟨2, ![1, 800000]⟩ ![0, 0] a1 hs) hc e).toInt < 50000 := by
  have e0 : Cert.Pre_finite_inputs.fn (F := Ideal) a0 a1 a2 a3 a4 a5 a6 a7 a8 a9 a10 a11 a12 a13 a14 a15 ValueIdx.ix0 = 1#1 :=
    congrFun h ValueIdx.ix0
  unfold Cert.Pre_finite_inputs.fn fn_part1 fn_part2 fn_part3 at e0
  exact part4_edge a1 _ _ ValueIdx.ix0 e0 e

end Cert.Pre_finite_inputs.SrcRange

end
-- ==== Proof.BridgeHost.lean ====
/-
  The host operations the two programs share. Under the precondition every source index, wrapped, passes the range
  test of the kernel's fill-mode gather, so that gather is the reference's plain gather of the same rows; the
  scatter-add into zeros at the destination indices, and the mean pooling over graphs, are the same operations in
  both programs. So each neighbour sum and the pooled matrix of the kernel's program are the reference's stage
  functions of the layer before them.
-/
import proofs.«401523_j2774548873916_1_alg».proof.Defs
import proofs.«401523_j2774548873916_1_alg».proof.Proof.Gen.KernelIdeal
import proofs.«401523_j2774548873916_1_alg».proof.Proof.Gen.Pre_finite_inputs
import proofs.«401523_j2774548873916_1_alg».proof.Proof.WalkDefs
import proofs.«401523_j2774548873916_1_alg».proof.Proof.RefRead
import proofs.«401523_j2774548873916_1_alg».proof.Proof.SrcRange
import proofs.«401523_j2774548873916_1_alg».proof.Proof.LibTakeFill
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem Idealize.ShloMosaic.ValueIdx
open Cert.KernelIdeal.Host Cert.ReferenceIdeal.ReadP

/-- A vector reshaped to a one-row matrix reads, at (0, q), the vector at q. -/
theorem shapeCast_row {α : Type} {M : Nat} (b : (⟨1, ![M]⟩ : Shape).Idx → α) (h : (⟨1, ![M]⟩ : Shape).ShapeCasts ⟨2, ![1, M]⟩) (q : Fin M) :
    shapeCast ⟨2, ![1, M]⟩ b h (ix2 0 q) = b (ix1 q) :=
  shapeCast_apply b h (ix2 0 q) (ix1 q) (by
    rewrite [Shape.rowMajor_val_two, Shape.rowMajor_val_one]
    show q.val = 0 * M + q.val
    omega)

/-- UNDER THE PRECONDITION every wrapped source index passes the range test `0 ≤ · ≤ 49999`. -/
theorem wrapped_in_range (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S800000x1.Idx) :
    IntOp.cmpi .sge (wrapCol (srcOf (m ((c : Thread Cert.KernelIdeal.nD Cert.KernelIdeal.τ).loc Cert.KernelIdeal.main_arg1))) i) 0#32 = 1#1
      ∧ IntOp.cmpi .sle (wrapCol (srcOf (m ((c : Thread Cert.KernelIdeal.nD Cert.KernelIdeal.τ).loc Cert.KernelIdeal.main_arg1))) i) 49999#32 = 1#1 := by
  have hr := fun e => Cert.Pre_finite_inputs.SrcRange.src_in_range _ _ _ _ _ _ _ _ _ _ _ _ _ _ _ _ (hpre c)
    Cert.KernelIdeal.Facts₀.slices_S2x800000_S1x800000_0_0 Cert.KernelIdeal.Facts₀.shapeCasts_S1x800000_S800000 e
  exact Idealize.ShloMosaic.TakeFill.wrapIdx_in_range 50000 (by decide) (by decide) _ (hr _).1 (hr _).2

section Stages

variable (x0 : Cert.ReferenceIdeal.S50000x128.Idx → EReal) (x1 : IVec Cert.ReferenceIdeal.S2x800000 32) (x2 : IVec Cert.ReferenceIdeal.S50000 32)
  (x3 : Cert.ReferenceIdeal.S128x128.Idx → EReal) (x4 : Cert.ReferenceIdeal.S128.Idx → EReal)
  (x5 : Cert.ReferenceIdeal.S128x32.Idx → EReal) (x6 : Cert.ReferenceIdeal.S32.Idx → EReal) (x7 : Cert.ReferenceIdeal.S128x32.Idx → EReal)
  (x8 : Cert.ReferenceIdeal.S32x64.Idx → EReal) (x9 : Cert.ReferenceIdeal.S64.Idx → EReal) (x10 : Cert.ReferenceIdeal.S32x64.Idx → EReal)
  (x11 : Cert.ReferenceIdeal.S64x128.Idx → EReal) (x12 : Cert.ReferenceIdeal.S128.Idx → EReal) (x13 : Cert.ReferenceIdeal.S64x128.Idx → EReal)

/-- The first neighbour sum: the kernel's operations on the reference's embedding are the reference's stage. -/
theorem agg1_ref :
    Host.scatterAdd Cert.KernelIdeal.scatter_S50000x128_S800000x1_S800000x128_1_0_0_1
        (broadcastInDim Cert.KernelIdeal.S50000x128 ![] Cert.KernelIdeal.Facts₀.bcast_S_S50000x128 (constant (F := Ideal) Cert.KernelIdeal.S_ .f32 0x00000000#32))
        (broadcastInDim Cert.KernelIdeal.S800000x1 ![0] Cert.KernelIdeal.Facts₀.bcast_S800000_S800000x1_0 (dstOf x1))
        (Host.gather Cert.KernelIdeal.gather_S50000x128_S800000x1_S800000x128_1_0_n_n_0_1_1128 (val_main_v7 (F := Ideal) x0 x3 x4) (wrapCol (srcOf x1)))
      = val_main_v17 (F := Ideal) x0 x1 x3 x4 := by
  unfold val_main_v17 val_main_v15 val_main_v16 val_main_v14 val_main_v13 val_main_v12 val_main_v9 val_main_v11 val_main_v8 val_main_v10 val_main_v3 val_main_v2 val_main_v1 val_main_v0 val_main_c val_main_c_0 val_main_cst wrapCol srcOf dstOf
  rfl

/-- The second neighbour sum: the kernel's operations on the reference's first SAGE stage are the reference's stage. -/
theorem agg2_ref :
    Host.scatterAdd Cert.KernelIdeal.scatter_S50000x32_S800000x1_S800000x32_1_0_0_1
        (broadcastInDim Cert.KernelIdeal.S50000x32 ![] Cert.KernelIdeal.Facts₀.bcast_S_S50000x32 (constant (F := Ideal) Cert.KernelIdeal.S_ .f32 0x00000000#32))
        (broadcastInDim Cert.KernelIdeal.S800000x1 ![0] Cert.KernelIdeal.Facts₀.bcast_S800000_S800000x1_0 (dstOf x1))
        (Host.gather Cert.KernelIdeal.gather_S50000x32_S800000x1_S800000x32_1_0_n_n_0_1_132 (val_main_v28 (F := Ideal) x0 x1 x3 x4 x5 x6 x7) (wrapCol (srcOf x1)))
      = val_main_v38 (F := Ideal) x0 x1 x3 x4 x5 x6 x7 := by
  unfold val_main_v38 val_main_v36 val_main_v37 val_main_v35 val_main_v34 val_main_v33 val_main_v30 val_main_v32 val_main_v29 val_main_v31 val_main_v3 val_main_v2 val_main_v1 val_main_v0 val_main_c_3 val_main_c_4 val_main_cst_5 wrapCol srcOf dstOf
  rfl

/-- The third neighbour sum: the kernel's operations on the reference's second SAGE stage are the reference's stage. -/
theorem agg3_ref :
    Host.scatterAdd Cert.KernelIdeal.scatter_S50000x64_S800000x1_S800000x64_1_0_0_1
        (broadcastInDim Cert.KernelIdeal.S50000x64 ![] Cert.KernelIdeal.Facts₀.bcast_S_S50000x64 (constant (F := Ideal) Cert.KernelIdeal.S_ .f32 0x00000000#32))
        (broadcastInDim Cert.KernelIdeal.S800000x1 ![0] Cert.KernelIdeal.Facts₀.bcast_S800000_S800000x1_0 (dstOf x1))
        (Host.gather Cert.KernelIdeal.gather_S50000x64_S800000x1_S800000x64_1_0_n_n_0_1_164 (val_main_v49 (F := Ideal) x0 x1 x3 x4 x5 x6 x7 x8 x9 x10) (wrapCol (srcOf x1)))
      = val_main_v59 (F := Ideal) x0 x1 x3 x4 x5 x6 x7 x8 x9 x10 := by
  unfold val_main_v59 val_main_v57 val_main_v58 val_main_v56 val_main_v55 val_main_v54 val_main_v51 val_main_v53 val_main_v50 val_main_v52 val_main_v3 val_main_v2 val_main_v1 val_main_v0 val_main_c_8 val_main_c_9 val_main_cst_10 wrapCol srcOf dstOf
  rfl

/-- The mean pooling: the kernel's operations on the reference's third SAGE stage are the reference's pooled matrix. -/
theorem pool_ref :
    poolOf (F := Ideal) (val_main_v65 (F := Ideal) x0 x1 x3 x4 x5 x6 x7 x8 x9 x10 x11 x12 x13) x2
      = val_main_v76 (F := Ideal) x0 x1 x2 x3 x4 x5 x6 x7 x8 x9 x10 x11 x12 x13 := by
  unfold poolOf val_main_v76 val_main_v75 val_main_v74 val_main_v73 val_main_v72 val_main_v71 val_main_v70 val_main_v69 val_main_v68 val_main_v67 val_main_v66
    val_main_cst_11 val_main_cst_12 val_main_cst_13 val_main_cst_14
  rfl

end Stages

end Cert.Bridge

end
-- ==== Proof.Bridge.lean ====
/-
  The kernel's program against the reference, boundary by boundary. Writing the reference's stage functions of the
  launch arguments as E (embedding), A₁ H₁ A₂ H₂ A₃ H₃ (neighbour sums and SAGE stages), P (pooled matrix) and O (the
  result): the embedding layer's pallas_call leaves E; under the precondition the fill-mode gather fills nothing, so the
  host operations turn E into A₁ and the first SAGE layer's pallas_call leaves H₁; likewise A₂, H₂, A₃, H₃; the pooling
  turns H₃ into P and the projection's pallas_call leaves O. Each pallas_call is read as a whole-array layer function
  (the row blocks tile the rows), each host stretch as the operations it applies, and each of the reference's dense
  stages as the same layer function (sums regrouped: addition of extended reals is commutative and associative).
-/
import proofs.«401523_j2774548873916_1_alg».proof.Defs
import proofs.«401523_j2774548873916_1_alg».proof.Proof.Gen.KernelIdeal.Frame
import proofs.«401523_j2774548873916_1_alg».proof.Proof.KRun
import proofs.«401523_j2774548873916_1_alg».proof.Proof.Reg0
import proofs.«401523_j2774548873916_1_alg».proof.Proof.Reg1
import proofs.«401523_j2774548873916_1_alg».proof.Proof.Reg2
import proofs.«401523_j2774548873916_1_alg».proof.Proof.Reg3
import proofs.«401523_j2774548873916_1_alg».proof.Proof.Reg4
import proofs.«401523_j2774548873916_1_alg».proof.Proof.Walk0
import proofs.«401523_j2774548873916_1_alg».proof.Proof.Walk1
import proofs.«401523_j2774548873916_1_alg».proof.Proof.Walk2
import proofs.«401523_j2774548873916_1_alg».proof.Proof.Walk3
import proofs.«401523_j2774548873916_1_alg».proof.Proof.Walk4
import proofs.«401523_j2774548873916_1_alg».proof.Proof.RefStages
import proofs.«401523_j2774548873916_1_alg».proof.Proof.BridgeHost

set_option maxRecDepth 16384

noncomputable section

namespace Cert.Bridge

open Idealize.ShloMosaic Idealize.ShloMosaic.TcCoe Idealize.SL.Sem Idealize.ShloMosaic.ValueIdx Idealize.ShloMosaic.SageSpec
open Cert.KernelIdeal Cert.KernelIdeal.Gen Cert.KernelIdeal.Host
open Cert.ReferenceIdeal.ReadP

variable (m : (ℓ : Loc nD τ sig) → Buf (Elt Ideal) ℓ) (ρ : Dev nD → PrngReg)

/-- Launch argument 0 on core c. -/
abbrev a0 (c : Dev nD) := m ((c : Thread nD τ).loc main_arg0)
/-- Launch argument 1 on core c. -/
abbrev a1 (c : Dev nD) := m ((c : Thread nD τ).loc main_arg1)
/-- Launch argument 2 on core c. -/
abbrev a2 (c : Dev nD) := m ((c : Thread nD τ).loc main_arg2)
/-- Launch argument 3 on core c. -/
abbrev a3 (c : Dev nD) := m ((c : Thread nD τ).loc main_arg3)
/-- Launch argument 4 on core c. -/
abbrev a4 (c : Dev nD) := m ((c : Thread nD τ).loc main_arg4)
/-- Launch argument 5 on core c. -/
abbrev a5 (c : Dev nD) := m ((c : Thread nD τ).loc main_arg5)
/-- Launch argument 6 on core c. -/
abbrev a6 (c : Dev nD) := m ((c : Thread nD τ).loc main_arg6)
/-- Launch argument 7 on core c. -/
abbrev a7 (c : Dev nD) := m ((c : Thread nD τ).loc main_arg7)
/-- Launch argument 8 on core c. -/
abbrev a8 (c : Dev nD) := m ((c : Thread nD τ).loc main_arg8)
/-- Launch argument 9 on core c. -/
abbrev a9 (c : Dev nD) := m ((c : Thread nD τ).loc main_arg9)
/-- Launch argument 10 on core c. -/
abbrev a10 (c : Dev nD) := m ((c : Thread nD τ).loc main_arg10)
/-- Launch argument 11 on core c. -/
abbrev a11 (c : Dev nD) := m ((c : Thread nD τ).loc main_arg11)
/-- Launch argument 12 on core c. -/
abbrev a12 (c : Dev nD) := m ((c : Thread nD τ).loc main_arg12)
/-- Launch argument 13 on core c. -/
abbrev a13 (c : Dev nD) := m ((c : Thread nD τ).loc main_arg13)
/-- Launch argument 14 on core c. -/
abbrev a14 (c : Dev nD) := m ((c : Thread nD τ).loc main_arg14)
/-- Launch argument 15 on core c. -/
abbrev a15 (c : Dev nD) := m ((c : Thread nD τ).loc main_arg15)

/-- After the embedding layer's pallas_call its output holds the reference's embedding stage. -/
theorem embedding (c : Dev nD) : W2 m ρ c (Proc.devRef .tc main_v5) = val_main_v7 (F := Ideal) (a0 m c) (a3 m c) (a4 m c) := by
  refine (W2_arr m ρ c 3).trans ?_
  refine (Cert.KernelIdeal.Reg0.value0 (V1 m ρ) c).trans ?_
  rw [Cert.ReferenceIdeal.Stages.h_eq]
  show linF (W1 m ρ c (Proc.devRef .tc main_arg0)) (W1 m ρ c (Proc.devRef .tc main_arg3)) (fun q => W1 m ρ c (Proc.devRef .tc main_v4) (ix2 0 q)) = _
  rw [Cert.KernelIdeal.Walk0.x, Cert.KernelIdeal.Walk0.w, Cert.KernelIdeal.Walk0.b]
  congr 1
  funext q
  exact shapeCast_row _ _ q

/-- After the first SAGE layer's pallas_call its output holds the reference's first SAGE stage. -/
theorem sage1 (hpre : Cert.Pre_KernelIdeal m) (c : Dev nD) :
    W5 m ρ c (Proc.devRef .tc main_v11) = val_main_v28 (F := Ideal) (a0 m c) (a1 m c) (a3 m c) (a4 m c) (a5 m c) (a6 m c) (a7 m c) := by
  have hin := wrapped_in_range m hpre c
  have hA : W4 m ρ c (Proc.devRef .tc main_v9) = val_main_v17 (F := Ideal) (a0 m c) (a1 m c) (a3 m c) (a4 m c) := by
    rw [Cert.KernelIdeal.Walk1.agg, Cert.KernelIdeal.Walk1.dst, Cert.KernelIdeal.Walk1.take m ρ c hin, embedding m ρ c]
    exact agg1_ref _ _ _ _
  refine (W5_arr m ρ c 5).trans ?_
  refine (Cert.KernelIdeal.Reg1.value1 (V4 m ρ) c).trans ?_
  rw [Cert.ReferenceIdeal.Stages.h1_eq]
  show sageF leakyAt (W4 m ρ c (Proc.devRef .tc main_v9)) (W4 m ρ c (Proc.devRef .tc main_v5)) (W4 m ρ c (Proc.devRef .tc main_arg5))
    (W4 m ρ c (Proc.devRef .tc main_arg7)) (fun q => W4 m ρ c (Proc.devRef .tc main_v10) (ix2 0 q)) = _
  rw [hA, Cert.KernelIdeal.Walk1.feat, embedding m ρ c, Cert.KernelIdeal.Walk1.wl, Cert.KernelIdeal.Walk1.wr, Cert.KernelIdeal.Walk1.b]
  congr 1
  funext q
  exact shapeCast_row _ _ q

/-- After the second SAGE layer's pallas_call its output holds the reference's second SAGE stage. -/
theorem sage2 (hpre : Cert.Pre_KernelIdeal m) (c : Dev nD) :
    W8 m ρ c (Proc.devRef .tc main_v17) = val_main_v49 (F := Ideal) (a0 m c) (a1 m c) (a3 m c) (a4 m c) (a5 m c) (a6 m c) (a7 m c) (a8 m c) (a9 m c) (a10 m c) := by
  have hin := wrapped_in_range m hpre c
  have hA : W7 m ρ c (Proc.devRef .tc main_v15) = val_main_v38 (F := Ideal) (a0 m c) (a1 m c) (a3 m c) (a4 m c) (a5 m c) (a6 m c) (a7 m c) := by
    rw [Cert.KernelIdeal.Walk2.agg, Cert.KernelIdeal.Walk2.dst, Cert.KernelIdeal.Walk2.take m ρ c hin, sage1 m ρ hpre c]
    exact agg2_ref _ _ _ _ _ _ _
  refine (W8_arr m ρ c 5).trans ?_
  refine (Cert.KernelIdeal.Reg2.value2 (V7 m ρ) c).trans ?_
  rw [Cert.ReferenceIdeal.Stages.h2_eq]
  show sageF leakyAt (W7 m ρ c (Proc.devRef .tc main_v15)) (W7 m ρ c (Proc.devRef .tc main_v11)) (W7 m ρ c (Proc.devRef .tc main_arg8))
    (W7 m ρ c (Proc.devRef .tc main_arg10)) (fun q => W7 m ρ c (Proc.devRef .tc main_v16) (ix2 0 q)) = _
  rw [hA, Cert.KernelIdeal.Walk2.feat, sage1 m ρ hpre c, Cert.KernelIdeal.Walk2.wl, Cert.KernelIdeal.Walk2.wr, Cert.KernelIdeal.Walk2.b]
  congr 1
  funext q
  exact shapeCast_row _ _ q

/-- After the third SAGE layer's pallas_call its output holds the reference's third SAGE stage. -/
theorem sage3 (hpre : Cert.Pre_KernelIdeal m) (c : Dev nD) :
    W11 m ρ c (Proc.devRef .tc main_v23) = val_main_v65 (F := Ideal) (a0 m c) (a1 m c) (a3 m c) (a4 m c) (a5 m c) (a6 m c) (a7 m c) (a8 m c) (a9 m c) (a10 m c) (a11 m c) (a12 m c) (a13 m c) := by
  have hin := wrapped_in_range m hpre c
  have hA : W10 m ρ c (Proc.devRef .tc main_v21) = val_main_v59 (F := Ideal) (a0 m c) (a1 m c) (a3 m c) (a4 m c) (a5 m c) (a6 m c) (a7 m c) (a8 m c) (a9 m c) (a10 m c) := by
    rw [Cert.KernelIdeal.Walk3.agg, Cert.KernelIdeal.Walk3.dst, Cert.KernelIdeal.Walk3.take m ρ c hin, sage2 m ρ hpre c]
    exact agg3_ref _ _ _ _ _ _ _ _ _ _
  refine (W11_arr m ρ c 5).trans ?_
  refine (Cert.KernelIdeal.Reg3.value3 (V10 m ρ) c).trans ?_
  rw [Cert.ReferenceIdeal.Stages.h3_eq]
  show sageF (fun s => s) (W10 m ρ c (Proc.devRef .tc main_v21)) (W10 m ρ c (Proc.devRef .tc main_v17)) (W10 m ρ c (Proc.devRef .tc main_arg11))
    (W10 m ρ c (Proc.devRef .tc main_arg13)) (fun q => W10 m ρ c (Proc.devRef .tc main_v22) (ix2 0 q)) = _
  rw [hA, Cert.KernelIdeal.Walk3.feat, sage2 m ρ hpre c, Cert.KernelIdeal.Walk3.wl, Cert.KernelIdeal.Walk3.wr, Cert.KernelIdeal.Walk3.b]
  congr 1
  funext q
  exact shapeCast_row _ _ q

/-- After the projection's pallas_call the result array holds the reference's result, as a function of the arguments. -/
theorem result (hpre : Cert.Pre_KernelIdeal m) (c : Dev nD) :
    W13 m ρ c (Proc.devRef .tc main_v36) = val_main_v80 (F := Ideal) (a0 m c) (a1 m c) (a2 m c) (a3 m c) (a4 m c) (a5 m c) (a6 m c) (a7 m c) (a8 m c) (a9 m c) (a10 m c) (a11 m c) (a12 m c) (a13 m c) (a14 m c) (a15 m c) := by
  refine (W13_arr m ρ c 3).trans ?_
  refine (Cert.KernelIdeal.Reg4.value4 (V12 m ρ) c).trans ?_
  rw [Cert.ReferenceIdeal.Stages.out_eq]
  show linF (W12 m ρ c (Proc.devRef .tc main_v34)) (W12 m ρ c (Proc.devRef .tc main_arg14)) (fun q => W12 m ρ c (Proc.devRef .tc main_v35) (ix2 0 q)) = _
  rw [Cert.KernelIdeal.Walk4.pooled, sage3 m ρ hpre c, pool_ref, Cert.KernelIdeal.Walk4.w, Cert.KernelIdeal.Walk4.b]
  congr 1
  funext q
  exact shapeCast_row _ _ q

end Cert.Bridge

namespace Cert.Proof.Claims

open Idealize.ShloMosaic Idealize.SL.Sem

/-- The two idealized programs, run from memories that agree on the arguments, end with equal results: the kernel's
    result array is the reference's result function of the kernel's arguments, which are the reference's. -/
theorem algebraic : Cert.algebraic_KernelIdeal_ReferenceIdeal := by
  intro m g m' g' hpre hagree
  refine ⟨fun c => Cert.ReferenceIdeal.ValueP.res_main_v80 m' c, ?_, Cert.ReferenceIdeal.ValueP.run (F := Ideal) m' g'⟩
  refine (θ_run Cert.KernelIdeal.defs _ _).mono (fun r h c => ⟨?_, (h c).2⟩) (Cert.KernelIdeal.GenP.run_result (F := Ideal) m g)
  refine (h c).1.trans ((Cert.Bridge.result m g hpre c).trans ?_)
  show _ = Cert.ReferenceIdeal.ValueP.res_main_v80 m' c
  rw [Cert.ReferenceIdeal.ReadP.val_main_v80_eq m' c]
  obtain ⟨e0, e1, e2, e3, e4, e5, e6, e7, e8, e9, e10, e11, e12, e13, e14, e15⟩ := hagree c
  rw [e0, e1, e2, e3, e4, e5, e6, e7, e8, e9, e10, e11, e12, e13, e14, e15]

end Cert.Proof.Claims

end
-- ==== Proof.lean ====
/- A three-layer GraphSAGE network with an embedding layer before it and mean pooling and a linear projection after it,
   on 50000 nodes, 800000 edges and 1000 graphs: `h = x · W_e + b_e`; three times `h ← act (agg · W_l + h · W_r + b_l)` with
   `agg[v] = Σ_{edges u→v} h[u]` (a row gather at the source indices, then a scatter-add at the destination indices) and
   `act` the leaky activation after the first two layers only; then the mean of `h` over each graph's nodes (the count
   clamped at one) and `· W_f + b_f`. The kernel computes the five dense layers in pallas_calls over blocks of 2000 rows
   (the last over its one block of 1000), with bf16 operands into an f32 accumulator, and does the gathers, scatter-adds
   and the pooling on the host as the reference does; the reference computes everything on the host.
   At the extended reals a change of float format is the identity and a matrix product is the exact sum, so every dense
   layer of the kernel is the reference's, block by block; the only regrouping is `(A + B) + b` against `(A + b) + B`,
   and addition of extended reals is commutative and associative, so no finiteness is used. The one difference on the
   host is the gather: the kernel's fills a row whose source index is out of range with a constant where the
   reference's clamps the index; under the precondition `-50000 ≤ src < 50000` (a valid index into 50000 rows, wrapped
   by both programs when negative) no row is filled and the two gathers read the same rows.
   The frames of the two kernel programs are the generated ones; the reference's frame is its run with the result
   dropped; the ideal pass rewrote nothing, so there is nothing to preserve. -/
import proofs.«401523_j2774548873916_1_alg».proof.Defs
import proofs.«401523_j2774548873916_1_alg».proof.Proof.Gen.Kernel
import proofs.«401523_j2774548873916_1_alg».proof.Proof.Gen.Kernel.Skeleton
import proofs.«401523_j2774548873916_1_alg».proof.Proof.Gen.Kernel.Launch
import proofs.«401523_j2774548873916_1_alg».proof.Proof.Gen.Kernel.Points
import proofs.«401523_j2774548873916_1_alg».proof.Proof.Gen.Kernel.Frame
import proofs.«401523_j2774548873916_1_alg».proof.Proof.Gen.KernelIdeal
import proofs.«401523_j2774548873916_1_alg».proof.Proof.Gen.KernelIdeal.Skeleton
import proofs.«401523_j2774548873916_1_alg».proof.Proof.Gen.KernelIdeal.Launch
import proofs.«401523_j2774548873916_1_alg».proof.Proof.Gen.KernelIdeal.Points
import proofs.«401523_j2774548873916_1_alg».proof.Proof.Gen.KernelIdeal.Frame
import proofs.«401523_j2774548873916_1_alg».proof.Proof.Gen.ReferenceIdeal
import proofs.«401523_j2774548873916_1_alg».proof.Proof.Gen.Pre_finite_inputs
import proofs.«401523_j2774548873916_1_alg».proof.Proof.RefRun
import proofs.«401523_j2774548873916_1_alg».proof.Proof.Bridge
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.Claims.algebraic⟩

end Cert.Proof

end
